-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x1000 : Shape := ⟨2, ![1024, 1000]⟩
abbrev S4096x1024 : Shape := ⟨2, ![4096, 1024]⟩
abbrev S4096x1000 : Shape := ⟨2, ![4096, 1000]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x1000 : S_.BroadcastsInDim S1024x1000 (![] : Fin 0 → Fin S1024x1000.rank)
  reducesTo_S1024x1000_S_d0_1 : S1024x1000.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x1000 : S_.BroadcastsInDim S4096x1000 (![] : Fin 0 → Fin S4096x1000.rank)
  reducesTo_S4096x1000_S_d0_1 : S4096x1000.ReducesTo [0, 1] S_

variable [Facts]

def fn_part2 {F : FTy → Type} [FloatOps F] (main_arg7 : FVec F S4096x1000 .f32) (main_v33 : IVec S_ 1) : IVec S_ 1 :=
  let main_v34 : FVec F S4096x1000 .f32 := Host.absf main_arg7
  let main_cst_12 : FVec F S_ .f32 := constant S_ .f32 0x7F800000#32
  let main_v35 : FVec F S4096x1000 .f32 := broadcastInDim S4096x1000 ![] bcast_S_S4096x1000 main_cst_12
  let main_v36 : IVec S4096x1000 1 := cmpf .olt main_v34 main_v35
  let main_c_13 : IVec S_ 1 := constantI S_ 1 1#1
  let main_v37 : IVec S_ 1 := (fun x v => Host.reduce IntOp.andi x v reducesTo_S4096x1000_S_d0_1 h_S_) main_v36 main_c_13
  let main_v38 : IVec S_ 1 := andi main_v33 main_v37
  main_v38

def fn_part1 {F : FTy → Type} [FloatOps F] (main_arg4 : FVec F S4096x1024 .f32) (main_arg5 : FVec F S4096x1024 .f32) (main_arg6 : FVec F S4096x1000 .f32) (main_arg7 : FVec F S4096x1000 .f32) (main_v13 : IVec S_ 1) (main_v16 : IVec S1024x1000 1) : IVec S_ 1 :=
  let main_c_5 : IVec S_ 1 := constantI S_ 1 1#1
  let main_v17 : IVec S_ 1 := (fun x v => Host.reduce IntOp.andi x v reducesTo_S1024x1000_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096x1000 .f32 := Host.absf main_arg6
  let main_cst_10 : FVec F S_ .f32 := constant S_ .f32 0x7F800000#32
  let main_v30 : FVec F S4096x1000 .f32 := broadcastInDim S4096x1000 ![] bcast_S_S4096x1000 main_cst_10
  let main_v31 : IVec S4096x1000 1 := cmpf .olt main_v29 main_v30
  let main_c_11 : IVec S_ 1 := constantI S_ 1 1#1
  let main_v32 : IVec S_ 1 := (fun x v => Host.reduce IntOp.andi x v reducesTo_S4096x1000_S_d0_1 h_S_) main_v31 main_c_11
  let main_v33 : IVec S_ 1 := andi main_v28 main_v32
  fn_part2 (F := F) main_arg7 main_v33

def fn {F : FTy → Type} [FloatOps F] (main_arg0 : FVec F S1024x1024 .f32) (main_arg1 : FVec F S1024x1024 .f32) (main_arg2 : FVec F S1024x1024 .f32) (main_arg3 : FVec F S1024x1000 .f32) (main_arg4 : FVec F S4096x1024 .f32) (main_arg5 : FVec F S4096x1024 .f32) (main_arg6 : FVec F S4096x1000 .f32) (main_arg7 : FVec F S4096x1000 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1000 .f32 := Host.absf main_arg3
  let main_cst_4 : FVec F S_ .f32 := constant S_ .f32 0x7F800000#32
  let main_v15 : FVec F S1024x1000 .f32 := broadcastInDim S1024x1000 ![] bcast_S_S1024x1000 main_cst_4
  let main_v16 : IVec S1024x1000 1 := cmpf .olt main_v14 main_v15
  fn_part1 (F := F) main_arg4 main_arg5 main_arg6 main_arg7 main_v13 main_v16
-- ==== Kernel.lean ====
abbrev S1024x1024 : Shape := ⟨2, ![1024, 1024]⟩
abbrev S1024x1000 : Shape := ⟨2, ![1024, 1000]⟩
abbrev S4096x1024 : Shape := ⟨2, ![4096, 1024]⟩
abbrev S4096x1000 : Shape := ⟨2, ![4096, 1000]⟩
abbrev S1024x256 : Shape := ⟨2, ![1024, 256]⟩
abbrev S256x1024 : Shape := ⟨2, ![256, 1024]⟩
abbrev S256x1000 : Shape := ⟨2, ![256, 1000]⟩

abbrev nBuf : Space → Nat
  | .hbm => 13
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1000, .f32⟩
  | .hbm, ⟨4, _⟩ => ⟨S4096x1024, .f32⟩
  | .hbm, ⟨5, _⟩ => ⟨S4096x1024, .f32⟩
  | .hbm, ⟨6, _⟩ => ⟨S4096x1000, .f32⟩
  | .hbm, ⟨7, _⟩ => ⟨S4096x1000, .f32⟩
  | .hbm, ⟨8, _⟩ => ⟨S1024x1024, .bf16⟩
  | .hbm, ⟨9, _⟩ => ⟨S1024x1024, .bf16⟩
  | .hbm, ⟨10, _⟩ => ⟨S1024x1000, .bf16⟩
  | .hbm, ⟨11, _⟩ => ⟨S1024x1024, .f32⟩
  | .hbm, ⟨12, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1000, .bf16⟩
  | .local _ .vmem, ⟨3, _⟩ => ⟨S1024x256, .f32⟩
  | .local _ .vmem, ⟨4, _⟩ => ⟨S1024x256, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1000, .f32⟩
  | .local _ .vmem, ⟨10, _⟩ => ⟨S256x1000, .f32⟩
  | .local _ .vmem, ⟨11, _⟩ => ⟨S256x1000, .f32⟩
  | .local _ .vmem, ⟨12, _⟩ => ⟨S256x1000, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256x1000_S256x1000_0_0 : ∀ a, (![0, 0] : Fin 2 → Nat) a + S256x1000.size a ≤ S256x1000.size a
  h_S256x1000 : 0 < S256x1000.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S1024x1024_S256x1024_S1024x256_1_1_0_0_n_n_wf : DotDims.WF S1024x1024 S256x1024 S1024x256 [1] [1] [0] [0] [] []
  dot_S1024x1000_S256x1000_S1024x256_1_1_0_0_n_n_wf : DotDims.WF S1024x1000 S256x1000 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S1024x1000.size a
  hwx0_2 : ∀ i : grid0.Coords, EltTy.bits .bf16 = 32 ∨ (Rect.block (s := S1024x1000) S1024x1000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x1024.size a
  hwx0_3 : ∀ i : grid0.Coords, EltTy.bits .f32 = 32 ∨ (Rect.block (s := S1024x1024) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1000.size a ≤ S4096x1000.size a
  hwx0_6 : ∀ i : grid0.Coords, EltTy.bits .f32 = 32 ∨ (Rect.block (s := S4096x1000) S256x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1000.size a ≤ S4096x1000.size a
  hwx0_7 : ∀ i : grid0.Coords, EltTy.bits .f32 = 32 ∨ (Rect.block (s := S4096x1000) S256x1000.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x1024.size a
  hwx0_8 : ∀ i : grid0.Coords, EltTy.bits .f32 = 32 ∨ (Rect.block (s := S1024x1024) S1024x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S1024x1024.size a
  hwx0_9 : ∀ i : grid0.Coords, EltTy.bits .f32 = 32 ∨ (Rect.block (s := S1024x1024) S1024x256.size (cc0_transform_9 i) (hinb0_9 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x1000_S256x1000_S1024x256_1_1_0_0_n_n : DotDims S1024x1000 S256x1000 S1024x256 where
  lhsContracting := [1]
  rhsContracting := [1]
  lhsNonContracting := [0]
  rhsNonContracting := [0]
  lhsBatch := []
  rhsBatch := []
  wf := dot_S1024x1000_S256x1000_S1024x256_1_1_0_0_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x1000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S1024x256.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S1024x256.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | 9 => fun i => !(k0_cond4 i == 1#1) | ⟨_ + 10, h⟩ => absurd h (Nat.not_lt.2 (Nat.le_add_left _ _))

class Facts : Prop extends Facts₀ where

variable [Facts]
-- ==== ReferenceIdeal.lean ====
abbrev S1024x1024 : Shape := ⟨2, ![1024, 1024]⟩
abbrev S1024x1000 : Shape := ⟨2, ![1024, 1000]⟩
abbrev S4096x1024 : Shape := ⟨2, ![4096, 1024]⟩
abbrev S4096x1000 : Shape := ⟨2, ![4096, 1000]⟩
abbrev S1024x4096 : Shape := ⟨2, ![1024, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1000, .f32⟩
  | .hbm, ⟨4, _⟩ => ⟨S4096x1024, .f32⟩
  | .hbm, ⟨5, _⟩ => ⟨S4096x1024, .f32⟩
  | .hbm, ⟨6, _⟩ => ⟨S4096x1000, .f32⟩
  | .hbm, ⟨7, _⟩ => ⟨S4096x1000, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S1024x4096, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S_, .f32⟩
  | .hbm, ⟨18, _⟩ => ⟨S1024x4096, .f32⟩
  | .hbm, ⟨19, _⟩ => ⟨S1024x4096, .f32⟩
  | .hbm, ⟨20, _⟩ => ⟨S_, .f32⟩
  | .hbm, ⟨21, _⟩ => ⟨S1024x4096, .f32⟩
  | .hbm, ⟨22, _⟩ => ⟨S1024x4096, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S1024x4096 : S_.BroadcastsInDim S1024x4096 (![] : Fin 0 → Fin S1024x4096.rank)
  slices_S1024x4096_S1024x1024_0_0 : S1024x4096.Slices ![0, 0] S1024x1024
  slices_S1024x4096_S1024x1024_0_1024 : S1024x4096.Slices ![0, 1024] S1024x1024
  slices_S1024x4096_S1024x1024_0_2048 : S1024x4096.Slices ![0, 2048] S1024x1024
  slices_S1024x4096_S1024x1024_0_3072 : S1024x4096.Slices ![0, 3072] S1024x1024
  dot_S1024x1000_S4096x1000_S1024x4096_1_1_0_0_n_n_wf : DotDims.WF S1024x1000 S4096x1000 S1024x4096 [1] [1] [0] [0] [] []
  dot_S1024x1024_S4096x1024_S1024x4096_1_1_0_0_n_n_wf : DotDims.WF S1024x1024 S4096x1024 S1024x4096 [1] [1] [0] [0] [] []

variable [Facts₀]

def dot_S1024x1000_S4096x1000_S1024x4096_1_1_0_0_n_n : DotDims S1024x1000 S4096x1000 S1024x4096 where
  lhsContracting := [1]
  rhsContracting := [1]
  lhsNonContracting := [0]
  rhsNonContracting := [0]
  lhsBatch := []
  rhsBatch := []
  wf := dot_S1024x1000_S4096x1000_S1024x4096_1_1_0_0_n_n_wf
def dot_S1024x1024_S4096x1024_S1024x4096_1_1_0_0_n_n : DotDims S1024x1024 S4096x1024 S1024x4096 where
  lhsContracting := [1]
  rhsContracting := [1]
  lhsNonContracting := [0]
  rhsNonContracting := [0]
  lhsBatch := []
  rhsBatch := []
  wf := dot_S1024x1024_S4096x1024_S1024x4096_1_1_0_0_n_n_wf

class Facts : Prop extends Facts₀ where

variable [Facts]
-- ==== Proof.BitsSched.lean ====
/-
  The schedule of the kernel's one launch, read off its grid of 4 column chunks by 4 gates (16 points, the
  gate the inner coordinate): which of the body's four branches a point takes (point t runs gate t mod 4), where the
  two output windows are live (only at the candidate gate, t mod 4 = 3, which is also where their block is written
  back), the staging memref each window is on at a point, the three scratch buffers as memrefs, and the region
  invariant of the launch with the scratch buffers spelt out.
-/
import proofs.«422929_j36936718745871_3_alg».proof.Proof.Gen.Kernel.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The four branches: the point's gate coordinate compared with 0, 1, 2, 3 -/

/-- The body's first branch is taken when the gate coordinate is 0 (the input gate). -/
abbrev gate0 (i : grid0.Coords) : Prop := (Scalar.cmpi .ne (Scalar.extui (Scalar.cmpi .eq (BitVec.ofNat 32 (i 1).val) 0#32)) 0#32) = 1#1
/-- The second when it is 1 (the forget gate). -/
abbrev gate1 (i : grid0.Coords) : Prop := (Scalar.cmpi .ne (Scalar.extui (Scalar.cmpi .eq (BitVec.ofNat 32 (i 1).val) 1#32)) 0#32) = 1#1
/-- The third when it is 2 (the output gate). -/
abbrev gate2 (i : grid0.Coords) : Prop := (Scalar.cmpi .ne (Scalar.extui (Scalar.cmpi .eq (BitVec.ofNat 32 (i 1).val) 2#32)) 0#32) = 1#1
/-- The fourth when it is 3 (the candidate: the point that combines). -/
abbrev gate3 (i : grid0.Coords) : Prop := k0_cond4 i = 1#1

theorem gate0_iff : ∀ t : Fin cfg0.N, gate0 (grid0.coords t) ↔ t.val % 4 = 0 :=
  (by decide +kernel : ∀ t : Fin grid0.N, gate0 (grid0.coords t) ↔ t.val % 4 = 0)
theorem gate1_iff : ∀ t : Fin cfg0.N, gate1 (grid0.coords t) ↔ t.val % 4 = 1 :=
  (by decide +kernel : ∀ t : Fin grid0.N, gate1 (grid0.coords t) ↔ t.val % 4 = 1)
theorem gate2_iff : ∀ t : Fin cfg0.N, gate2 (grid0.coords t) ↔ t.val % 4 = 2 :=
  (by decide +kernel : ∀ t : Fin grid0.N, gate2 (grid0.coords t) ↔ t.val % 4 = 2)
theorem gate3_iff : ∀ t : Fin cfg0.N, gate3 (grid0.coords t) ↔ t.val % 4 = 3 :=
  (by decide +kernel : ∀ t : Fin grid0.N, gate3 (grid0.coords t) ↔ t.val % 4 = 3)

/-! ## Live and idle windows -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-- The output windows are live exactly at the candidate gate, -/
theorem live8 : ∀ t : Fin cfg0.N, t.val % 4 = 3 → cfg0.idle 8 (grid0.coords t) = false := by decide +kernel
theorem live9 : ∀ t : Fin cfg0.N, t.val % 4 = 3 → cfg0.idle 9 (grid0.coords t) = false := by decide +kernel
/-- idle at the other three, -/
theorem idle8 : ∀ t : Fin cfg0.N, ¬t.val % 4 = 3 → cfg0.idle 8 (grid0.coords t) = true := by decide +kernel
theorem idle9 : ∀ t : Fin cfg0.N, ¬t.val % 4 = 3 → cfg0.idle 9 (grid0.coords t) = true := by decide +kernel
/-- and not written back there. -/
theorem noFlush8 : ∀ t : Fin cfg0.N, ¬t.val % 4 = 3 → (cfg0.win 8).flush t = false := by decide +kernel
theorem noFlush9 : ∀ t : Fin cfg0.N, ¬t.val % 4 = 3 → (cfg0.win 9).flush t = false := by decide +kernel

/-! ## The memrefs the body is called with -/

abbrev ms0 (t : Fin cfg0.N) : Memref sig .tc .vmem S1024x1024 .bf16 := win0_0.stage (cfg0.slots t 0)
abbrev ms1 (t : Fin cfg0.N) : Memref sig .tc .vmem S1024x1024 .bf16 := win0_1.stage (cfg0.slots t 1)
abbrev ms2 (t : Fin cfg0.N) : Memref sig .tc .vmem S1024x1000 .bf16 := win0_2.stage (cfg0.slots t 2)
abbrev ms3 (t : Fin cfg0.N) : Memref sig .tc .vmem S1024x256 .f32 := win0_3.stage (cfg0.slots t 3)
abbrev ms4 (t : Fin cfg0.N) : Memref sig .tc .vmem S256x1024 .f32 := win0_4.stage (cfg0.slots t 4)
abbrev ms5 (t : Fin cfg0.N) : Memref sig .tc .vmem S256x1024 .f32 := win0_5.stage (cfg0.slots t 5)
abbrev ms6 (t : Fin cfg0.N) : Memref sig .tc .vmem S256x1000 .f32 := win0_6.stage (cfg0.slots t 6)
abbrev ms7 (t : Fin cfg0.N) : Memref sig .tc .vmem S256x1000 .f32 := win0_7.stage (cfg0.slots t 7)
abbrev ms8 (t : Fin cfg0.N) : Memref sig .tc .vmem S1024x256 .f32 := win0_8.stage (cfg0.slots t 8)
abbrev ms9 (t : Fin cfg0.N) : Memref sig .tc .vmem S1024x256 .f32 := win0_9.stage (cfg0.slots t 9)

/-- The three gate buffers the kernel keeps between points: input, forget, output. -/
abbrev scI : Memref sig .tc .vmem S1024x256 .f32 := Memref.whole cc0_scratch0
abbrev scF : Memref sig .tc .vmem S1024x256 .f32 := Memref.whole cc0_scratch1
abbrev scO : Memref sig .tc .vmem S1024x256 .f32 := Memref.whole cc0_scratch2

/-- The launch's region invariant: the three gate buffers at some contents, and the generator register. -/
theorem PhiA_eq (c : Dev nD) :
    (Pipeline.ΦA spec0 c : sProp 𝕄)
      = iprop(iprop((∃ d, owns (c : Thread nD τ) scI fullShare d) ∗ (∃ d, owns (c : Thread nD τ) scF fullShare d) ∗ (∃ d, owns (c : Thread nD τ) scO fullShare d)) ∗ (∃ r, prngReg c r)) := by
  unfold Pipeline.ΦA; rw [scopedRest0_eq]; simp only [scI, scF, scO, owns_whole]; try rfl

end Cert.Kernel.Body

end
-- ==== Proof.BitsRuns.lean ====
/-
  The kernel body run symbolically, once for each of the four branches a grid point can take. The body always loads the
  four weight blocks and the three activation blocks and forms the gate chunk
      logistic ((concept · W_ci) * (input · W_in) + (concept · W_cs) * (state · W_st))
  (the payload `k0_pay4` of the skeleton); which buffer the chunk is stored into, or whether the point combines the three
  stored chunks with the old cell state into the two results, depends on the point's gate coordinate. Each statement
  says, for whole staging buffers at given contents, what every buffer holds when the body returns.
-/
import proofs.«422929_j36936718745871_3_alg».proof.Proof.BitsSched
import proofs.«422929_j36936718745871_3_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The offsets of a whole-buffer load or store, spelt as a constant function. -/
theorem hz : (![0, 0] : Fin 2 → Nat) = fun _ => 0 := funext fun a => by fin_cases a <;> rfl

set_option maxHeartbeats 1000000 in
/-- At a point of the input gate (gate coordinate 0) the body computes the gate chunk from the eight input blocks and stores it into the input-gate buffer, whatever that held; the forget and output buffers, the two output blocks and the inputs are handed back as found. -/
theorem run_gate0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : gate0 i) (hc1 : ¬gate1 i) (hc2 : ¬gate2 i) (hc3 : ¬gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (y8 y9 sF sO : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ (∃ d, owns (c : Thread nD τ) arg12 fullShare d) ∗ owns (c : Thread nD τ) arg13 fullShare sF ∗ owns (c : Thread nD τ) arg14 fullShare sO
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare (k0_pay5 x4 x5 x6 x7 x0 x1 x2 x2) ∗ owns (c : Thread nD τ) arg13 fullShare sF ∗ owns (c : Thread nD τ) arg14 fullShare sO) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  isplitl [H11]
  · iexists _; isplitr; · ipureintro; exact harg13.read_unread _
    iexact H11
  iexists _; isplitr; · ipureintro; exact harg14.read_unread _
  iexact H12

set_option maxHeartbeats 1000000 in
/-- At a point of the forget gate (gate coordinate 1) the chunk goes into the forget-gate buffer; the input-gate buffer keeps what it holds. -/
theorem run_gate1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : ¬gate0 i) (hc1 : gate1 i) (hc2 : ¬gate2 i) (hc3 : ¬gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (y8 y9 sI sO : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ (∃ d, owns (c : Thread nD τ) arg13 fullShare d) ∗ owns (c : Thread nD τ) arg14 fullShare sO
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ owns (c : Thread nD τ) arg13 fullShare (k0_pay6 x4 x5 x6 x7 x0 x1 x2 x2) ∗ owns (c : Thread nD τ) arg14 fullShare sO) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  iexists _; isplitr; · ipureintro; exact harg14.read_unread _
  iexact H12

set_option maxHeartbeats 1000000 in
/-- At a point of the output gate (gate coordinate 2) the chunk goes into the output-gate buffer; the other two keep what they hold. -/
theorem run_gate2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : ¬gate0 i) (hc1 : ¬gate1 i) (hc2 : gate2 i) (hc3 : ¬gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (y8 y9 sI sF : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ owns (c : Thread nD τ) arg13 fullShare sF ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ owns (c : Thread nD τ) arg13 fullShare sF ∗ owns (c : Thread nD τ) arg14 fullShare (k0_pay1 (k0_pay4 x4 x5 x6 x7 x0 x1 x2 x2))) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  iexists _; isplitr; swap; · iexact H12
  ipureintro
  try sl_unfold_words
  rw [View.read_writes_eq_canon _ _ _ (fun y => ⟨_, List.mem_singleton_self _, View.mem_set_unit_zero hz inb_S1024x256_S1024x256_0_0 y⟩), View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]

set_option maxHeartbeats 1000000 in
/-- At a point of the candidate (gate coordinate 3) the body reads the three gate buffers and the old cell state's block, and stores the new hidden state's block and the new cell state's block into the two output buffers, whatever those held; the gate buffers keep what they hold. -/
theorem run_gate3 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : ¬gate0 i) (hc1 : ¬gate1 i) (hc2 : ¬gate2 i) (hc3 : gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (sI sF sO : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare sI ∗ owns (c : Thread nD τ) arg13 fullShare sF ∗ owns (c : Thread nD τ) arg14 fullShare sO
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay3 (k0_pay4 x4 x5 x6 x7 x0 x1 x2 x2) sI sF sO x3) ∗ owns (c : Thread nD τ) arg11 fullShare (k0_pay2 (k0_pay4 x4 x5 x6 x7 x0 x1 x2 x2) sI sF x3) ∗ owns (c : Thread nD τ) arg12 fullShare sI ∗ owns (c : Thread nD τ) arg13 fullShare sF ∗ owns (c : Thread nD τ) arg14 fullShare sO) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11; obtain rfl := harg14.eq_unread hf12
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  isplitl [H9]
  · iexists _; isplitr; swap; · iexact H9
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  isplitl [H10]
  · iexists _; isplitr; · ipureintro; exact harg12.read_unread _
    iexact H10
  isplitl [H11]
  · iexists _; isplitr; · ipureintro; exact harg13.read_unread _
    iexact H11
  iexists _; isplitr; · ipureintro; exact harg14.read_unread _
  iexact H12

end Cert.Kernel.Body

end
-- ==== Proof.BitsFrame.lean ====
/-
  The launch of the kernel as a whole: what the three gate buffers hold from point to point, what the two output
  blocks hold when they are written back, and from that the run of the program — it terminates, nothing faults, the
  argument arrays end unchanged, and each result array is the write-backs of the candidate points' blocks.

  The grid has 16 points, point t = 4 * chunk + gate. For one chunk of 256 hidden columns the points 4k, 4k+1, 4k+2 store
  the input, forget and output gates' chunks, and point 4k+3 computes the candidate's chunk and combines:
      c = i * cand + f * c_old,    h = o * tanh c.
  So before point n the buffers hold: the input gate of point n-1 if n ≡ 1, the input and forget gates of points n-2, n-1
  if n ≡ 2, all three gates of points n-3, n-2, n-1 if n ≡ 3 (mod 4) — and anything at all if n ≡ 0, which is why the
  very first point needs nothing of the buffers' initial contents.
-/
import proofs.«422929_j36936718745871_3_alg».proof.Proof.BitsRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values -/

/-- Point number `n` of the grid (a number past the grid wraps round; only numbers below 16 are ever asked for). -/
def pt (n : ℕ) : Fin cfg0.N := ⟨n % 16, lt_of_lt_of_eq (Nat.mod_lt n (by decide)) (show 16 = cfg0.N from N_0.symm)⟩

theorem pt_val (t : Fin cfg0.N) : pt t.val = t :=
  Fin.ext (Nat.mod_eq_of_lt (lt_of_lt_of_eq t.isLt (show cfg0.N = 16 from N_0)))

/-- The gate chunk point `t` computes from its eight input blocks. -/
def act (c : Dev nD) (t : Fin cfg0.N) : Vec F S1024x256 .f32 :=
  k0_pay4 (iblk m c 4 t) (iblk m c 5 t) (iblk m c 6 t) (iblk m c 7 t) (iblk m c 0 t) (iblk m c 1 t) (iblk m c 2 t) (iblk m c 2 t)
/-- The same chunk as each of the three gate buffers receives it. -/
def keptI (c : Dev nD) (t : Fin cfg0.N) : Vec F S1024x256 .f32 :=
  k0_pay5 (iblk m c 4 t) (iblk m c 5 t) (iblk m c 6 t) (iblk m c 7 t) (iblk m c 0 t) (iblk m c 1 t) (iblk m c 2 t) (iblk m c 2 t)
def keptF (c : Dev nD) (t : Fin cfg0.N) : Vec F S1024x256 .f32 :=
  k0_pay6 (iblk m c 4 t) (iblk m c 5 t) (iblk m c 6 t) (iblk m c 7 t) (iblk m c 0 t) (iblk m c 1 t) (iblk m c 2 t) (iblk m c 2 t)
def keptO (c : Dev nD) (t : Fin cfg0.N) : Vec F S1024x256 .f32 :=
  k0_pay1 (k0_pay4 (iblk m c 4 t) (iblk m c 5 t) (iblk m c 6 t) (iblk m c 7 t) (iblk m c 0 t) (iblk m c 1 t) (iblk m c 2 t) (iblk m c 2 t))

/-- The new cell state's block as point `t` would store it: the gates of the three points before `t`, the candidate of `t`. -/
def outC (c : Dev nD) (t : Fin cfg0.N) : Vec F S1024x256 .f32 :=
  k0_pay2 (k0_pay4 (iblk m c 4 t) (iblk m c 5 t) (iblk m c 6 t) (iblk m c 7 t) (iblk m c 0 t) (iblk m c 1 t) (iblk m c 2 t) (iblk m c 2 t))
    (keptI m c (pt (t.val - 3))) (keptF m c (pt (t.val - 2))) (iblk m c 3 t)
/-- The new hidden state's block. -/
def outH (c : Dev nD) (t : Fin cfg0.N) : Vec F S1024x256 .f32 :=
  k0_pay3 (k0_pay4 (iblk m c 4 t) (iblk m c 5 t) (iblk m c 6 t) (iblk m c 7 t) (iblk m c 0 t) (iblk m c 1 t) (iblk m c 2 t) (iblk m c 2 t))
    (keptI m c (pt (t.val - 3))) (keptF m c (pt (t.val - 2))) (keptO m c (pt (t.val - 1))) (iblk m c 3 t)

/-- What the three gate buffers must hold before point `n`. -/
def Held (c : Dev nD) (n : ℕ) (sI sF sO : Vec F S1024x256 .f32) : Prop :=
  (n % 4 = 1 → sI = keptI m c (pt (n - 1)))
  ∧ (n % 4 = 2 → sI = keptI m c (pt (n - 2)) ∧ sF = keptF m c (pt (n - 1)))
  ∧ (n % 4 = 3 → sI = keptI m c (pt (n - 3)) ∧ sF = keptF m c (pt (n - 2)) ∧ sO = keptO m c (pt (n - 1)))

theorem held_zero (c : Dev nD) (sI sF sO : Vec F S1024x256 .f32) : Held m c 0 sI sF sO :=
  ⟨fun h => absurd h (by decide), fun h => absurd h (by decide), fun h => absurd h (by decide)⟩

/-- After an input-gate point the input gate's chunk is there. -/
theorem held_gate0 (c : Dev nD) (t : Fin cfg0.N) (h0 : t.val % 4 = 0) (sF sO : Vec F S1024x256 .f32) :
    Held m c (t.val + 1) (keptI m c t) sF sO :=
  ⟨fun _ => by rw [Nat.add_sub_cancel, pt_val], fun h => by omega, fun h => by omega⟩

/-- After a forget-gate point the forget gate's chunk has joined it. -/
theorem held_gate1 (c : Dev nD) (t : Fin cfg0.N) (h1 : t.val % 4 = 1) (sI sF sO : Vec F S1024x256 .f32)
    (hH : Held m c t.val sI sF sO) : Held m c (t.val + 1) sI (keptF m c t) sO :=
  ⟨fun h => by omega,
   fun _ => ⟨(hH.1 h1).trans (by rw [show t.val + 1 - 2 = t.val - 1 from by omega]), by rw [Nat.add_sub_cancel, pt_val]⟩,
   fun h => by omega⟩

/-- After an output-gate point all three are there. -/
theorem held_gate2 (c : Dev nD) (t : Fin cfg0.N) (h2 : t.val % 4 = 2) (sI sF sO : Vec F S1024x256 .f32)
    (hH : Held m c t.val sI sF sO) : Held m c (t.val + 1) sI sF (keptO m c t) :=
  ⟨fun h => by omega, fun h => by omega,
   fun _ => ⟨((hH.2.1 h2).1).trans (by rw [show t.val + 1 - 3 = t.val - 2 from by omega]),
     ((hH.2.1 h2).2).trans (by rw [show t.val + 1 - 2 = t.val - 1 from by omega]), by rw [Nat.add_sub_cancel, pt_val]⟩⟩

/-- After a candidate point nothing is asked of them. -/
theorem held_gate3 (c : Dev nD) (t : Fin cfg0.N) (h3 : t.val % 4 = 3) (sI sF sO : Vec F S1024x256 .f32) :
    Held m c (t.val + 1) sI sF sO :=
  ⟨fun h => by omega, fun h => by omega, fun h => by omega⟩

/-- The region's invariant before point `n`: the three gate buffers at contents that satisfy `Held`, and the generator register. -/
def Phi (c : Dev nD) (n : ℕ) : sProp 𝕄 :=
  iprop((∃ sI, ∃ sF, ∃ sO, ⌜Held m c n sI sF sO⌝ ∗ owns (c : Thread nD τ) scI fullShare sI ∗ owns (c : Thread nD τ) scF fullShare sF ∗ owns (c : Thread nD τ) scO fullShare sO) ∗ (∃ r, prngReg c r))

/-! ## The pipeline's proof data -/

/-- The arrays as the region finds them; after the body at point `t` each input's buffer at its block, the two outputs'
    at the combined blocks (consulted only at candidate points: elsewhere the windows are idle); the invariant `Phi`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outH m c t
    | ⟨9, _⟩ => outC m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outH m c t := by dsimp only [dats]
theorem after9 (c : Dev nD) (t : Fin cfg0.N) : (dats m 0 c).after 9 t = outC m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point: the point's gate coordinate picks the branch; the invariant hands over the gate buffers with
    what `Held` says of them and takes them back with what it says one point later; an output block is handed back as it
    was found at the three idle gates and at the combined block at the candidate. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 4 t = owns (c : Thread nD τ) (ms4 t) fullShare (iblk m c 4 t) from by
    unfold Dat.leavesExact; rw [live4 t, after4]]
  rw [show (dats m 0 c).leavesExact 5 t = owns (c : Thread nD τ) (ms5 t) fullShare (iblk m c 5 t) from by
    unfold Dat.leavesExact; rw [live5 t, after5]]
  rw [show (dats m 0 c).leavesExact 6 t = owns (c : Thread nD τ) (ms6 t) fullShare (iblk m c 6 t) from by
    unfold Dat.leavesExact; rw [live6 t, after6]]
  rw [show (dats m 0 c).leavesExact 7 t = owns (c : Thread nD τ) (ms7 t) fullShare (iblk m c 7 t) from by
    unfold Dat.leavesExact; rw [live7 t, after7]]
  unfold Phi
  have hN : t.val < 16 := lt_of_lt_of_eq t.isLt (show cfg0.N = 16 from N_0)
  by_cases h0 : t.val % 4 = 0
  ·
    -- the point runs gate 0
    rw [Dat.leavesExact_idle (dats m 0 c) 8 t (idle8 t (by omega)) (noFlush8 t (by omega)),
      Dat.leavesExact_idle (dats m 0 c) 9 t (idle9 t (by omega)) (noFlush9 t (by omega))]
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_gate0 c (grid0.coords t) _ _ _ _ _ _ _ _ _ _ _ _ _ _ _ _ _ _ _ _ _ _ _ _ _ _ ((gate0_iff t).mpr h0) (fun h => by have := (gate1_iff t).mp h; omega) (fun h => by have := (gate2_iff t).mp h; omega) (fun h => by have := (gate3_iff t).mp h; omega) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) sF sO Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HI]; · iexists _; iexact HI
    isplitl [HF]; · iexact HF
    isplitl [HO]; · iexact HO
    iintro ⟨H0, H1, H2, H3, H4, H5, H6, H7, H8, H9, HI, HF, HO⟩
    isplitl [HI HF HO Hg]
    · isplitl [HI HF HO]
      · iexists _, _, _; isplitr
        · ipureintro; exact held_gate0 m c t h0 sF sO
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  by_cases h1 : t.val % 4 = 1
  ·
    -- the point runs gate 1
    rw [Dat.leavesExact_idle (dats m 0 c) 8 t (idle8 t (by omega)) (noFlush8 t (by omega)),
      Dat.leavesExact_idle (dats m 0 c) 9 t (idle9 t (by omega)) (noFlush9 t (by omega))]
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_gate1 c (grid0.coords t) _ _ _ _ _ _ _ _ _ _ _ _ _ _ _ _ _ _ _ _ _ _ _ _ _ _ (fun h => by have := (gate0_iff t).mp h; omega) ((gate1_iff t).mpr h1) (fun h => by have := (gate2_iff t).mp h; omega) (fun h => by have := (gate3_iff t).mp h; omega) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) sI sO Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HI]; · iexact HI
    isplitl [HF]; · iexists _; iexact HF
    isplitl [HO]; · iexact HO
    iintro ⟨H0, H1, H2, H3, H4, H5, H6, H7, H8, H9, HI, HF, HO⟩
    isplitl [HI HF HO Hg]
    · isplitl [HI HF HO]
      · iexists _, _, _; isplitr
        · ipureintro; exact held_gate1 m c t h1 sI sF sO hH
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  by_cases h2 : t.val % 4 = 2
  ·
    -- the point runs gate 2
    rw [Dat.leavesExact_idle (dats m 0 c) 8 t (idle8 t (by omega)) (noFlush8 t (by omega)),
      Dat.leavesExact_idle (dats m 0 c) 9 t (idle9 t (by omega)) (noFlush9 t (by omega))]
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_gate2 c (grid0.coords t) _ _ _ _ _ _ _ _ _ _ _ _ _ _ _ _ _ _ _ _ _ _ _ _ _ _ (fun h => by have := (gate0_iff t).mp h; omega) (fun h => by have := (gate1_iff t).mp h; omega) ((gate2_iff t).mpr h2) (fun h => by have := (gate3_iff t).mp h; omega) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) sI sF Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HI]; · iexact HI
    isplitl [HF]; · iexact HF
    isplitl [HO]; · iexists _; iexact HO
    iintro ⟨H0, H1, H2, H3, H4, H5, H6, H7, H8, H9, HI, HF, HO⟩
    isplitl [HI HF HO Hg]
    · isplitl [HI HF HO]
      · iexists _, _, _; isplitr
        · ipureintro; exact held_gate2 m c t h2 sI sF sO hH
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · -- the point runs the candidate and combines
    have h3 : t.val % 4 = 3 := by omega
    rw [show (dats m 0 c).leavesExact 8 t = owns (c : Thread nD τ) (ms8 t) fullShare (outH m c t) from by
      unfold Dat.leavesExact; rw [live8 t h3, after8]]
    rw [show (dats m 0 c).leavesExact 9 t = owns (c : Thread nD τ) (ms9 t) fullShare (outC m c t) from by
      unfold Dat.leavesExact; rw [live9 t h3, after9]]
    unfold outH outC
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain ⟨rfl, rfl, rfl⟩ := hH.2.2 h3
    iapply (run_gate3 c (grid0.coords t) _ _ _ _ _ _ _ _ _ _ _ _ _ _ _ _ _ _ _ _ _ _ _ _ _ _ (fun h => by have := (gate0_iff t).mp h; omega) (fun h => by have := (gate1_iff t).mp h; omega) (fun h => by have := (gate2_iff t).mp h; omega) ((gate3_iff t).mpr h3) (iblk m c 0 t) (iblk m c 1 t) (iblk m c 2 t) (iblk m c 3 t) (iblk m c 4 t) (iblk m c 5 t) (iblk m c 6 t) (iblk m c 7 t) (keptI m c (pt (t.val - 3))) (keptF m c (pt (t.val - 2))) (keptO m c (pt (t.val - 1))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HI]; · iexact HI
    isplitl [HF]; · iexact HF
    isplitl [HO]; · iexact HO
    iintro ⟨H0, H1, H2, H3, H4, H5, H6, H7, H8, H9, HI, HF, HO⟩
    isplitl [HI HF HO Hg]
    · isplitl [HI HF HO]
      · iexists _, _, _; isplitr
        · ipureintro; exact held_gate3 m c t h3 (keptI m c (pt (t.val - 3))) (keptF m c (pt (t.val - 2))) (keptO m c (pt (t.val - 1)))
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the buffers there. -/
theorem hin (c : Dev nD) : Pipeline.ΦA spec0 c ⊢ (dats m 0 c).Φ 0 := by
  rw [show (dats m 0 c).Φ 0 = Phi m c 0 from rfl, PhiA_eq]
  unfold Phi
  iintro ⟨⟨⟨%a, HI⟩, ⟨%b, HF⟩, ⟨%d, HO⟩⟩, Hg⟩
  isplitl [HI HF HO]
  · iexists a, b, d; isplitr
    · ipureintro; exact held_zero m c a b d
    isplitl [HI]; · iexact HI
    isplitl [HF]; · iexact HF
    iexact HO
  iexact Hg

/-- After the last point the invariant gives the launch's back: what the buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%sI, %sF, %sO, -, HI, HF, HO⟩, Hg⟩
  isplitl [HI HF HO]
  · isplitl [HI]; · iexists _; iexact HI
    isplitl [HF]; · iexists _; iexact HF
    iexists _; iexact HO
  iexact Hg

/-! ## The run and the frame -/

set_option backward.isDefEq.respectTransparency.types false in
/-- Every weakly fair execution of the program terminates; every array of the pipeline ends at what the write-backs
    make of the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.IdealSched.lean ====
/-
  The schedule of the kernel's one launch, read off its grid of 4 column chunks by 4 gates (16 points, the
  gate the inner coordinate): which of the body's four branches a point takes (point t runs gate t mod 4), where the
  two output windows are live (only at the candidate gate, t mod 4 = 3, which is also where their block is written
  back), the staging memref each window is on at a point, the three scratch buffers as memrefs, and the region
  invariant of the launch with the scratch buffers spelt out.
-/
import proofs.«422929_j36936718745871_3_alg».proof.Proof.Gen.KernelIdeal.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The four branches: the point's gate coordinate compared with 0, 1, 2, 3 -/

/-- The body's first branch is taken when the gate coordinate is 0 (the input gate). -/
abbrev gate0 (i : grid0.Coords) : Prop := (Scalar.cmpi .ne (Scalar.extui (Scalar.cmpi .eq (BitVec.ofNat 32 (i 1).val) 0#32)) 0#32) = 1#1
/-- The second when it is 1 (the forget gate). -/
abbrev gate1 (i : grid0.Coords) : Prop := (Scalar.cmpi .ne (Scalar.extui (Scalar.cmpi .eq (BitVec.ofNat 32 (i 1).val) 1#32)) 0#32) = 1#1
/-- The third when it is 2 (the output gate). -/
abbrev gate2 (i : grid0.Coords) : Prop := (Scalar.cmpi .ne (Scalar.extui (Scalar.cmpi .eq (BitVec.ofNat 32 (i 1).val) 2#32)) 0#32) = 1#1
/-- The fourth when it is 3 (the candidate: the point that combines). -/
abbrev gate3 (i : grid0.Coords) : Prop := k0_cond4 i = 1#1

theorem gate0_iff : ∀ t : Fin cfg0.N, gate0 (grid0.coords t) ↔ t.val % 4 = 0 :=
  (by decide +kernel : ∀ t : Fin grid0.N, gate0 (grid0.coords t) ↔ t.val % 4 = 0)
theorem gate1_iff : ∀ t : Fin cfg0.N, gate1 (grid0.coords t) ↔ t.val % 4 = 1 :=
  (by decide +kernel : ∀ t : Fin grid0.N, gate1 (grid0.coords t) ↔ t.val % 4 = 1)
theorem gate2_iff : ∀ t : Fin cfg0.N, gate2 (grid0.coords t) ↔ t.val % 4 = 2 :=
  (by decide +kernel : ∀ t : Fin grid0.N, gate2 (grid0.coords t) ↔ t.val % 4 = 2)
theorem gate3_iff : ∀ t : Fin cfg0.N, gate3 (grid0.coords t) ↔ t.val % 4 = 3 :=
  (by decide +kernel : ∀ t : Fin grid0.N, gate3 (grid0.coords t) ↔ t.val % 4 = 3)

/-! ## Live and idle windows -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-- The output windows are live exactly at the candidate gate, -/
theorem live8 : ∀ t : Fin cfg0.N, t.val % 4 = 3 → cfg0.idle 8 (grid0.coords t) = false := by decide +kernel
theorem live9 : ∀ t : Fin cfg0.N, t.val % 4 = 3 → cfg0.idle 9 (grid0.coords t) = false := by decide +kernel
/-- idle at the other three, -/
theorem idle8 : ∀ t : Fin cfg0.N, ¬t.val % 4 = 3 → cfg0.idle 8 (grid0.coords t) = true := by decide +kernel
theorem idle9 : ∀ t : Fin cfg0.N, ¬t.val % 4 = 3 → cfg0.idle 9 (grid0.coords t) = true := by decide +kernel
/-- and not written back there. -/
theorem noFlush8 : ∀ t : Fin cfg0.N, ¬t.val % 4 = 3 → (cfg0.win 8).flush t = false := by decide +kernel
theorem noFlush9 : ∀ t : Fin cfg0.N, ¬t.val % 4 = 3 → (cfg0.win 9).flush t = false := by decide +kernel

/-! ## The memrefs the body is called with -/

abbrev ms0 (t : Fin cfg0.N) : Memref sig .tc .vmem S1024x1024 .bf16 := win0_0.stage (cfg0.slots t 0)
abbrev ms1 (t : Fin cfg0.N) : Memref sig .tc .vmem S1024x1024 .bf16 := win0_1.stage (cfg0.slots t 1)
abbrev ms2 (t : Fin cfg0.N) : Memref sig .tc .vmem S1024x1000 .bf16 := win0_2.stage (cfg0.slots t 2)
abbrev ms3 (t : Fin cfg0.N) : Memref sig .tc .vmem S1024x256 .f32 := win0_3.stage (cfg0.slots t 3)
abbrev ms4 (t : Fin cfg0.N) : Memref sig .tc .vmem S256x1024 .f32 := win0_4.stage (cfg0.slots t 4)
abbrev ms5 (t : Fin cfg0.N) : Memref sig .tc .vmem S256x1024 .f32 := win0_5.stage (cfg0.slots t 5)
abbrev ms6 (t : Fin cfg0.N) : Memref sig .tc .vmem S256x1000 .f32 := win0_6.stage (cfg0.slots t 6)
abbrev ms7 (t : Fin cfg0.N) : Memref sig .tc .vmem S256x1000 .f32 := win0_7.stage (cfg0.slots t 7)
abbrev ms8 (t : Fin cfg0.N) : Memref sig .tc .vmem S1024x256 .f32 := win0_8.stage (cfg0.slots t 8)
abbrev ms9 (t : Fin cfg0.N) : Memref sig .tc .vmem S1024x256 .f32 := win0_9.stage (cfg0.slots t 9)

/-- The three gate buffers the kernel keeps between points: input, forget, output. -/
abbrev scI : Memref sig .tc .vmem S1024x256 .f32 := Memref.whole cc0_scratch0
abbrev scF : Memref sig .tc .vmem S1024x256 .f32 := Memref.whole cc0_scratch1
abbrev scO : Memref sig .tc .vmem S1024x256 .f32 := Memref.whole cc0_scratch2

/-- The launch's region invariant: the three gate buffers at some contents, and the generator register. -/
theorem PhiA_eq (c : Dev nD) :
    (Pipeline.ΦA spec0 c : sProp 𝕄)
      = iprop(iprop((∃ d, owns (c : Thread nD τ) scI fullShare d) ∗ (∃ d, owns (c : Thread nD τ) scF fullShare d) ∗ (∃ d, owns (c : Thread nD τ) scO fullShare d)) ∗ (∃ r, prngReg c r)) := by
  unfold Pipeline.ΦA; rw [scopedRest0_eq]; simp only [scI, scF, scO, owns_whole]; try rfl

end Cert.KernelIdeal.Body

end
-- ==== Proof.IdealRuns.lean ====
/-
  The kernel body run symbolically, once for each of the four branches a grid point can take. The body always loads the
  four weight blocks and the three activation blocks and forms the gate chunk
      logistic ((concept · W_ci) * (input · W_in) + (concept · W_cs) * (state · W_st))
  (the payload `k0_pay4` of the skeleton); which buffer the chunk is stored into, or whether the point combines the three
  stored chunks with the old cell state into the two results, depends on the point's gate coordinate. Each statement
  says, for whole staging buffers at given contents, what every buffer holds when the body returns.
-/
import proofs.«422929_j36936718745871_3_alg».proof.Proof.IdealSched
import proofs.«422929_j36936718745871_3_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The offsets of a whole-buffer load or store, spelt as a constant function. -/
theorem hz : (![0, 0] : Fin 2 → Nat) = fun _ => 0 := funext fun a => by fin_cases a <;> rfl

set_option maxHeartbeats 1000000 in
/-- At a point of the input gate (gate coordinate 0) the body computes the gate chunk from the eight input blocks and stores it into the input-gate buffer, whatever that held; the forget and output buffers, the two output blocks and the inputs are handed back as found. -/
theorem run_gate0 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : gate0 i) (hc1 : ¬gate1 i) (hc2 : ¬gate2 i) (hc3 : ¬gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (y8 y9 sF sO : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ (∃ d, owns (c : Thread nD τ) arg12 fullShare d) ∗ owns (c : Thread nD τ) arg13 fullShare sF ∗ owns (c : Thread nD τ) arg14 fullShare sO
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare (k0_pay5 x4 x5 x6 x7 x0 x1 x2 x2) ∗ owns (c : Thread nD τ) arg13 fullShare sF ∗ owns (c : Thread nD τ) arg14 fullShare sO) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  isplitl [H11]
  · iexists _; isplitr; · ipureintro; exact harg13.read_unread _
    iexact H11
  iexists _; isplitr; · ipureintro; exact harg14.read_unread _
  iexact H12

set_option maxHeartbeats 1000000 in
/-- At a point of the forget gate (gate coordinate 1) the chunk goes into the forget-gate buffer; the input-gate buffer keeps what it holds. -/
theorem run_gate1 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : ¬gate0 i) (hc1 : gate1 i) (hc2 : ¬gate2 i) (hc3 : ¬gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (y8 y9 sI sO : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ (∃ d, owns (c : Thread nD τ) arg13 fullShare d) ∗ owns (c : Thread nD τ) arg14 fullShare sO
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ owns (c : Thread nD τ) arg13 fullShare (k0_pay6 x4 x5 x6 x7 x0 x1 x2 x2) ∗ owns (c : Thread nD τ) arg14 fullShare sO) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  iexists _; isplitr; · ipureintro; exact harg14.read_unread _
  iexact H12

set_option maxHeartbeats 1000000 in
/-- At a point of the output gate (gate coordinate 2) the chunk goes into the output-gate buffer; the other two keep what they hold. -/
theorem run_gate2 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : ¬gate0 i) (hc1 : ¬gate1 i) (hc2 : gate2 i) (hc3 : ¬gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (y8 y9 sI sF : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ owns (c : Thread nD τ) arg13 fullShare sF ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare sI ∗ owns (c : Thread nD τ) arg13 fullShare sF ∗ owns (c : Thread nD τ) arg14 fullShare (k0_pay1 (k0_pay4 x4 x5 x6 x7 x0 x1 x2 x2))) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  iexists _; isplitr; swap; · iexact H12
  ipureintro
  try sl_unfold_words
  rw [View.read_writes_eq_canon _ _ _ (fun y => ⟨_, List.mem_singleton_self _, View.mem_set_unit_zero hz inb_S1024x256_S1024x256_0_0 y⟩), View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]

set_option maxHeartbeats 1000000 in
/-- At a point of the candidate (gate coordinate 3) the body reads the three gate buffers and the old cell state's block, and stores the new hidden state's block and the new cell state's block into the two output buffers, whatever those held; the gate buffers keep what they hold. -/
theorem run_gate3 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1000 .bf16) (harg4 : arg4.IsWhole) (arg5 : Memref sig .tc .vmem S1024x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1000 .f32) (harg8 : arg8.IsWhole) (arg9 : Memref sig .tc .vmem S256x1000 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole)
    (hc0 : ¬gate0 i) (hc1 : ¬gate1 i) (hc2 : ¬gate2 i) (hc3 : gate3 i)
    (x0 : Vec F S1024x1024 .bf16) (x1 : Vec F S1024x1024 .bf16) (x2 : Vec F S1024x1000 .bf16) (x3 : Vec F S1024x256 .f32) (x4 : Vec F S256x1024 .f32) (x5 : Vec F S256x1024 .f32) (x6 : Vec F S256x1000 .f32) (x7 : Vec F S256x1000 .f32) (sI sF sO : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare sI ∗ owns (c : Thread nD τ) arg13 fullShare sF ∗ owns (c : Thread nD τ) arg14 fullShare sO
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay3 (k0_pay4 x4 x5 x6 x7 x0 x1 x2 x2) sI sF sO x3) ∗ owns (c : Thread nD τ) arg11 fullShare (k0_pay2 (k0_pay4 x4 x5 x6 x7 x0 x1 x2 x2) sI sF x3) ∗ owns (c : Thread nD τ) arg12 fullShare sI ∗ owns (c : Thread nD τ) arg13 fullShare sF ∗ owns (c : Thread nD τ) arg14 fullShare sO) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11; obtain rfl := harg14.eq_unread hf12
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  isplitl [H9]
  · iexists _; isplitr; swap; · iexact H9
    ipureintro
    try sl_unfold_words
    rw [View.read_writes_eq_canon _ _ _ (fun y => ⟨_, List.mem_singleton_self _, View.mem_set_unit_zero hz inb_S1024x256_S1024x256_0_0 y⟩), View.canon_unit_zero hz]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x1024) hz, View.ld_unit_zero (S := S1024x1000) hz, View.ld_unit_zero (S := S1024x256) hz, View.ld_unit_zero (S := S256x1024) hz, View.ld_unit_zero (S := S256x1000) hz]
  isplitl [H10]
  · iexists _; isplitr; · ipureintro; exact harg12.read_unread _
    iexact H10
  isplitl [H11]
  · iexists _; isplitr; · ipureintro; exact harg13.read_unread _
    iexact H11
  iexists _; isplitr; · ipureintro; exact harg14.read_unread _
  iexact H12

end Cert.KernelIdeal.Body

end
-- ==== Proof.IdealFrame.lean ====
/-
  The launch of the kernel as a whole: what the three gate buffers hold from point to point, what the two output
  blocks hold when they are written back, and from that the run of the program — it terminates, nothing faults, the
  argument arrays end unchanged, and each result array is the write-backs of the candidate points' blocks.

  The grid has 16 points, point t = 4 * chunk + gate. For one chunk of 256 hidden columns the points 4k, 4k+1, 4k+2 store
  the input, forget and output gates' chunks, and point 4k+3 computes the candidate's chunk and combines:
      c = i * cand + f * c_old,    h = o * tanh c.
  So before point n the buffers hold: the input gate of point n-1 if n ≡ 1, the input and forget gates of points n-2, n-1
  if n ≡ 2, all three gates of points n-3, n-2, n-1 if n ≡ 3 (mod 4) — and anything at all if n ≡ 0, which is why the
  very first point needs nothing of the buffers' initial contents.
-/
import proofs.«422929_j36936718745871_3_alg».proof.Proof.IdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The values -/

/-- Point number `n` of the grid (a number past the grid wraps round; only numbers below 16 are ever asked for). -/
def pt (n : ℕ) : Fin cfg0.N := ⟨n % 16, lt_of_lt_of_eq (Nat.mod_lt n (by decide)) (show 16 = cfg0.N from N_0.symm)⟩

theorem pt_val (t : Fin cfg0.N) : pt t.val = t :=
  Fin.ext (Nat.mod_eq_of_lt (lt_of_lt_of_eq t.isLt (show cfg0.N = 16 from N_0)))

/-- The gate chunk point `t` computes from its eight input blocks. -/
def act (c : Dev nD) (t : Fin cfg0.N) : Vec F S1024x256 .f32 :=
  k0_pay4 (iblk m c 4 t) (iblk m c 5 t) (iblk m c 6 t) (iblk m c 7 t) (iblk m c 0 t) (iblk m c 1 t) (iblk m c 2 t) (iblk m c 2 t)
/-- The same chunk as each of the three gate buffers receives it. -/
def keptI (c : Dev nD) (t : Fin cfg0.N) : Vec F S1024x256 .f32 :=
  k0_pay5 (iblk m c 4 t) (iblk m c 5 t) (iblk m c 6 t) (iblk m c 7 t) (iblk m c 0 t) (iblk m c 1 t) (iblk m c 2 t) (iblk m c 2 t)
def keptF (c : Dev nD) (t : Fin cfg0.N) : Vec F S1024x256 .f32 :=
  k0_pay6 (iblk m c 4 t) (iblk m c 5 t) (iblk m c 6 t) (iblk m c 7 t) (iblk m c 0 t) (iblk m c 1 t) (iblk m c 2 t) (iblk m c 2 t)
def keptO (c : Dev nD) (t : Fin cfg0.N) : Vec F S1024x256 .f32 :=
  k0_pay1 (k0_pay4 (iblk m c 4 t) (iblk m c 5 t) (iblk m c 6 t) (iblk m c 7 t) (iblk m c 0 t) (iblk m c 1 t) (iblk m c 2 t) (iblk m c 2 t))

/-- The new cell state's block as point `t` would store it: the gates of the three points before `t`, the candidate of `t`. -/
def outC (c : Dev nD) (t : Fin cfg0.N) : Vec F S1024x256 .f32 :=
  k0_pay2 (k0_pay4 (iblk m c 4 t) (iblk m c 5 t) (iblk m c 6 t) (iblk m c 7 t) (iblk m c 0 t) (iblk m c 1 t) (iblk m c 2 t) (iblk m c 2 t))
    (keptI m c (pt (t.val - 3))) (keptF m c (pt (t.val - 2))) (iblk m c 3 t)
/-- The new hidden state's block. -/
def outH (c : Dev nD) (t : Fin cfg0.N) : Vec F S1024x256 .f32 :=
  k0_pay3 (k0_pay4 (iblk m c 4 t) (iblk m c 5 t) (iblk m c 6 t) (iblk m c 7 t) (iblk m c 0 t) (iblk m c 1 t) (iblk m c 2 t) (iblk m c 2 t))
    (keptI m c (pt (t.val - 3))) (keptF m c (pt (t.val - 2))) (keptO m c (pt (t.val - 1))) (iblk m c 3 t)

/-- What the three gate buffers must hold before point `n`. -/
def Held (c : Dev nD) (n : ℕ) (sI sF sO : Vec F S1024x256 .f32) : Prop :=
  (n % 4 = 1 → sI = keptI m c (pt (n - 1)))
  ∧ (n % 4 = 2 → sI = keptI m c (pt (n - 2)) ∧ sF = keptF m c (pt (n - 1)))
  ∧ (n % 4 = 3 → sI = keptI m c (pt (n - 3)) ∧ sF = keptF m c (pt (n - 2)) ∧ sO = keptO m c (pt (n - 1)))

theorem held_zero (c : Dev nD) (sI sF sO : Vec F S1024x256 .f32) : Held m c 0 sI sF sO :=
  ⟨fun h => absurd h (by decide), fun h => absurd h (by decide), fun h => absurd h (by decide)⟩

/-- After an input-gate point the input gate's chunk is there. -/
theorem held_gate0 (c : Dev nD) (t : Fin cfg0.N) (h0 : t.val % 4 = 0) (sF sO : Vec F S1024x256 .f32) :
    Held m c (t.val + 1) (keptI m c t) sF sO :=
  ⟨fun _ => by rw [Nat.add_sub_cancel, pt_val], fun h => by omega, fun h => by omega⟩

/-- After a forget-gate point the forget gate's chunk has joined it. -/
theorem held_gate1 (c : Dev nD) (t : Fin cfg0.N) (h1 : t.val % 4 = 1) (sI sF sO : Vec F S1024x256 .f32)
    (hH : Held m c t.val sI sF sO) : Held m c (t.val + 1) sI (keptF m c t) sO :=
  ⟨fun h => by omega,
   fun _ => ⟨(hH.1 h1).trans (by rw [show t.val + 1 - 2 = t.val - 1 from by omega]), by rw [Nat.add_sub_cancel, pt_val]⟩,
   fun h => by omega⟩

/-- After an output-gate point all three are there. -/
theorem held_gate2 (c : Dev nD) (t : Fin cfg0.N) (h2 : t.val % 4 = 2) (sI sF sO : Vec F S1024x256 .f32)
    (hH : Held m c t.val sI sF sO) : Held m c (t.val + 1) sI sF (keptO m c t) :=
  ⟨fun h => by omega, fun h => by omega,
   fun _ => ⟨((hH.2.1 h2).1).trans (by rw [show t.val + 1 - 3 = t.val - 2 from by omega]),
     ((hH.2.1 h2).2).trans (by rw [show t.val + 1 - 2 = t.val - 1 from by omega]), by rw [Nat.add_sub_cancel, pt_val]⟩⟩

/-- After a candidate point nothing is asked of them. -/
theorem held_gate3 (c : Dev nD) (t : Fin cfg0.N) (h3 : t.val % 4 = 3) (sI sF sO : Vec F S1024x256 .f32) :
    Held m c (t.val + 1) sI sF sO :=
  ⟨fun h => by omega, fun h => by omega, fun h => by omega⟩

/-- The region's invariant before point `n`: the three gate buffers at contents that satisfy `Held`, and the generator register. -/
def Phi (c : Dev nD) (n : ℕ) : sProp 𝕄 :=
  iprop((∃ sI, ∃ sF, ∃ sO, ⌜Held m c n sI sF sO⌝ ∗ owns (c : Thread nD τ) scI fullShare sI ∗ owns (c : Thread nD τ) scF fullShare sF ∗ owns (c : Thread nD τ) scO fullShare sO) ∗ (∃ r, prngReg c r))

/-! ## The pipeline's proof data -/

/-- The arrays as the region finds them; after the body at point `t` each input's buffer at its block, the two outputs'
    at the combined blocks (consulted only at candidate points: elsewhere the windows are idle); the invariant `Phi`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outH m c t
    | ⟨9, _⟩ => outC m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outH m c t := by dsimp only [dats]
theorem after9 (c : Dev nD) (t : Fin cfg0.N) : (dats m 0 c).after 9 t = outC m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point: the point's gate coordinate picks the branch; the invariant hands over the gate buffers with
    what `Held` says of them and takes them back with what it says one point later; an output block is handed back as it
    was found at the three idle gates and at the combined block at the candidate. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 4 t = owns (c : Thread nD τ) (ms4 t) fullShare (iblk m c 4 t) from by
    unfold Dat.leavesExact; rw [live4 t, after4]]
  rw [show (dats m 0 c).leavesExact 5 t = owns (c : Thread nD τ) (ms5 t) fullShare (iblk m c 5 t) from by
    unfold Dat.leavesExact; rw [live5 t, after5]]
  rw [show (dats m 0 c).leavesExact 6 t = owns (c : Thread nD τ) (ms6 t) fullShare (iblk m c 6 t) from by
    unfold Dat.leavesExact; rw [live6 t, after6]]
  rw [show (dats m 0 c).leavesExact 7 t = owns (c : Thread nD τ) (ms7 t) fullShare (iblk m c 7 t) from by
    unfold Dat.leavesExact; rw [live7 t, after7]]
  unfold Phi
  have hN : t.val < 16 := lt_of_lt_of_eq t.isLt (show cfg0.N = 16 from N_0)
  by_cases h0 : t.val % 4 = 0
  ·
    -- the point runs gate 0
    rw [Dat.leavesExact_idle (dats m 0 c) 8 t (idle8 t (by omega)) (noFlush8 t (by omega)),
      Dat.leavesExact_idle (dats m 0 c) 9 t (idle9 t (by omega)) (noFlush9 t (by omega))]
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_gate0 c (grid0.coords t) _ _ _ _ _ _ _ _ _ _ _ _ _ _ _ _ _ _ _ _ _ _ _ _ _ _ ((gate0_iff t).mpr h0) (fun h => by have := (gate1_iff t).mp h; omega) (fun h => by have := (gate2_iff t).mp h; omega) (fun h => by have := (gate3_iff t).mp h; omega) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) sF sO Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HI]; · iexists _; iexact HI
    isplitl [HF]; · iexact HF
    isplitl [HO]; · iexact HO
    iintro ⟨H0, H1, H2, H3, H4, H5, H6, H7, H8, H9, HI, HF, HO⟩
    isplitl [HI HF HO Hg]
    · isplitl [HI HF HO]
      · iexists _, _, _; isplitr
        · ipureintro; exact held_gate0 m c t h0 sF sO
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  by_cases h1 : t.val % 4 = 1
  ·
    -- the point runs gate 1
    rw [Dat.leavesExact_idle (dats m 0 c) 8 t (idle8 t (by omega)) (noFlush8 t (by omega)),
      Dat.leavesExact_idle (dats m 0 c) 9 t (idle9 t (by omega)) (noFlush9 t (by omega))]
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_gate1 c (grid0.coords t) _ _ _ _ _ _ _ _ _ _ _ _ _ _ _ _ _ _ _ _ _ _ _ _ _ _ (fun h => by have := (gate0_iff t).mp h; omega) ((gate1_iff t).mpr h1) (fun h => by have := (gate2_iff t).mp h; omega) (fun h => by have := (gate3_iff t).mp h; omega) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) sI sO Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HI]; · iexact HI
    isplitl [HF]; · iexists _; iexact HF
    isplitl [HO]; · iexact HO
    iintro ⟨H0, H1, H2, H3, H4, H5, H6, H7, H8, H9, HI, HF, HO⟩
    isplitl [HI HF HO Hg]
    · isplitl [HI HF HO]
      · iexists _, _, _; isplitr
        · ipureintro; exact held_gate1 m c t h1 sI sF sO hH
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  by_cases h2 : t.val % 4 = 2
  ·
    -- the point runs gate 2
    rw [Dat.leavesExact_idle (dats m 0 c) 8 t (idle8 t (by omega)) (noFlush8 t (by omega)),
      Dat.leavesExact_idle (dats m 0 c) 9 t (idle9 t (by omega)) (noFlush9 t (by omega))]
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_gate2 c (grid0.coords t) _ _ _ _ _ _ _ _ _ _ _ _ _ _ _ _ _ _ _ _ _ _ _ _ _ _ (fun h => by have := (gate0_iff t).mp h; omega) (fun h => by have := (gate1_iff t).mp h; omega) ((gate2_iff t).mpr h2) (fun h => by have := (gate3_iff t).mp h; omega) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) sI sF Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HI]; · iexact HI
    isplitl [HF]; · iexact HF
    isplitl [HO]; · iexists _; iexact HO
    iintro ⟨H0, H1, H2, H3, H4, H5, H6, H7, H8, H9, HI, HF, HO⟩
    isplitl [HI HF HO Hg]
    · isplitl [HI HF HO]
      · iexists _, _, _; isplitr
        · ipureintro; exact held_gate2 m c t h2 sI sF sO hH
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · -- the point runs the candidate and combines
    have h3 : t.val % 4 = 3 := by omega
    rw [show (dats m 0 c).leavesExact 8 t = owns (c : Thread nD τ) (ms8 t) fullShare (outH m c t) from by
      unfold Dat.leavesExact; rw [live8 t h3, after8]]
    rw [show (dats m 0 c).leavesExact 9 t = owns (c : Thread nD τ) (ms9 t) fullShare (outC m c t) from by
      unfold Dat.leavesExact; rw [live9 t h3, after9]]
    unfold outH outC
    iintro ⟨⟨⟨%sI, %sF, %sO, %hH, HI, HF, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain ⟨rfl, rfl, rfl⟩ := hH.2.2 h3
    iapply (run_gate3 c (grid0.coords t) _ _ _ _ _ _ _ _ _ _ _ _ _ _ _ _ _ _ _ _ _ _ _ _ _ _ (fun h => by have := (gate0_iff t).mp h; omega) (fun h => by have := (gate1_iff t).mp h; omega) (fun h => by have := (gate2_iff t).mp h; omega) ((gate3_iff t).mpr h3) (iblk m c 0 t) (iblk m c 1 t) (iblk m c 2 t) (iblk m c 3 t) (iblk m c 4 t) (iblk m c 5 t) (iblk m c 6 t) (iblk m c 7 t) (keptI m c (pt (t.val - 3))) (keptF m c (pt (t.val - 2))) (keptO m c (pt (t.val - 1))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HI]; · iexact HI
    isplitl [HF]; · iexact HF
    isplitl [HO]; · iexact HO
    iintro ⟨H0, H1, H2, H3, H4, H5, H6, H7, H8, H9, HI, HF, HO⟩
    isplitl [HI HF HO Hg]
    · isplitl [HI HF HO]
      · iexists _, _, _; isplitr
        · ipureintro; exact held_gate3 m c t h3 (keptI m c (pt (t.val - 3))) (keptF m c (pt (t.val - 2))) (keptO m c (pt (t.val - 1)))
        isplitl [HI]; · iexact HI
        isplitl [HF]; · iexact HF
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is asked of the buffers there. -/
theorem hin (c : Dev nD) : Pipeline.ΦA spec0 c ⊢ (dats m 0 c).Φ 0 := by
  rw [show (dats m 0 c).Φ 0 = Phi m c 0 from rfl, PhiA_eq]
  unfold Phi
  iintro ⟨⟨⟨%a, HI⟩, ⟨%b, HF⟩, ⟨%d, HO⟩⟩, Hg⟩
  isplitl [HI HF HO]
  · iexists a, b, d; isplitr
    · ipureintro; exact held_zero m c a b d
    isplitl [HI]; · iexact HI
    isplitl [HF]; · iexact HF
    iexact HO
  iexact Hg

/-- After the last point the invariant gives the launch's back: what the buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%sI, %sF, %sO, -, HI, HF, HO⟩, Hg⟩
  isplitl [HI HF HO]
  · isplitl [HI]; · iexists _; iexact HI
    isplitl [HF]; · iexists _; iexact HF
    iexists _; iexact HO
  iexact Hg

/-! ## The run and the frame -/

set_option backward.isDefEq.respectTransparency.types false in
/-- Every weakly fair execution of the program terminates; every array of the pipeline ends at what the write-backs
    make of the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.IdealPayload.lean ====
/-
  The kernel body's arithmetic, read at an index over the extended reals.

  Over the extended reals a format change (f32 to bf16) is the identity, a shape cast to the same shape is the
  identity, and a matrix product into the zero accumulator is the plain sum over the contracted axis. Both products of
  the body contract axis 1 of both operands, so at the output index (b, q) the product of L : [1024, K] and
  R : [256, K] is  ∑ k : Fin K, L (b, k) * R (q, k)  (K = 1024 and K = 1000): the contraction index, a one-axis
  multi-index, is re-indexed by its single coordinate, and the operand indices are identified axis by axis (axis 0 is
  the output's row for the left operand and the output's column for the right one; axis 1 is the contraction coordinate).

  With operands A : [1024, 1000], H₀, H₁ : [1024, 1024] and weight blocks W₄, W₅ : [256, 1024], W₆, W₇ : [256, 1000],
  the chunk of gate activations is

      act (b, q) = logistic ( (∑ k, A (b,k) * W₆ (q,k)) * (∑ k, H₀ (b,k) * W₄ (q,k))
                            + (∑ k, A (b,k) * W₇ (q,k)) * (∑ k, H₁ (b,k) * W₅ (q,k)) ).

  A kept copy of a chunk is that chunk itself. With p, r, s the three kept chunks, a the current chunk and c the
  previous cell state, the new cell state is  p * a + r * c  lane by lane, and the new hidden state is
  s * tanh (p * a + r * c).
-/
import proofs.«422929_j36936718745871_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## The product contracting 1024 terms: its operand indices, axis by axis -/

/-- Axis 0 of the left operand's index is the output's row. -/
theorem lhs_k1024_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
/-- Axis 1 of the left operand's index is the contraction coordinate. -/
theorem lhs_k1024_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
/-- Axis 0 of the right operand's index is the output's column. -/
theorem rhs_k1024_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
/-- Axis 1 of the right operand's index is the contraction coordinate. -/
theorem rhs_k1024_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

/-- Into the zero accumulator, the product of `l : [1024, 1024]` and `r : [256, 1024]` contracting axis 1 of both is, at
    `(b, q)`, the sum over `k` of `l (b, k) * r (q, k)`: the sum over the one-axis contraction index, re-indexed by its
    coordinate. -/
theorem matmul_k1024_apply (l : FVec Ideal S1024x1024 .bf16) (r : FVec Ideal S256x1024 .bf16) (b : Fin 1024) (q : Fin 256) :
    matmul dot_S1024x1024_S256x1024_S1024x256_1_1_0_0_n_n none l r (constant (F := Ideal) S1024x256 .f32 0x00000000#32) (ix2 b q)
      = ∑ k : Fin 1024, l (ix2 b k) * r (ix2 q k) := by
  simp only [matmul]
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 b q) ((contrEquiv1 dot_S1024x1024_S256x1024_S1024x256_1_1_0_0_n_n 1024 rfl rfl).symm k) = ix2 b k := funext fun a => Fin.ext (by
    match a with
    | ⟨0, _⟩ => exact lhs_k1024_0 _ _
    | ⟨1, _⟩ => exact (lhs_k1024_1 _ _).trans hk)
  have er : dot_S1024x1024_S256x1024_S1024x256_1_1_0_0_n_n.rhsIdx (ix2 b q) ((contrEquiv1 dot_S1024x1024_S256x1024_S1024x256_1_1_0_0_n_n 1024 rfl rfl).symm k) = ix2 q k := funext fun a => Fin.ext (by
    match a with
    | ⟨0, _⟩ => exact rhs_k1024_0 _ _
    | ⟨1, _⟩ => exact (rhs_k1024_1 _ _).trans hk)
  rw [el, er]

/-! ## The product contracting 1000 terms: its operand indices, axis by axis -/

/-- Axis 0 of the left operand's index is the output's row. -/
theorem lhs_k1000_0 (i : S1024x256.Idx) (q : dot_S1024x1000_S256x1000_S1024x256_1_1_0_0_n_n.contr.Idx) :
    (dot_S1024x1000_S256x1000_S1024x256_1_1_0_0_n_n.lhsIdx i q 0).val = (i 0).val := by
  unfold DotDims.lhsIdx
  rw [dif_neg (show ¬(0 : Fin S1024x1000.rank) ∈ dot_S1024x1000_S256x1000_S1024x256_1_1_0_0_n_n.lhsBatch by decide), dif_pos (show (0 : Fin S1024x1000.rank) ∈ dot_S1024x1000_S256x1000_S1024x256_1_1_0_0_n_n.lhsNonContracting by decide)]
  rfl
/-- Axis 1 of the left operand's index is the contraction coordinate. -/
theorem lhs_k1000_1 (i : S1024x256.Idx) (q : dot_S1024x1000_S256x1000_S1024x256_1_1_0_0_n_n.contr.Idx) :
    (dot_S1024x1000_S256x1000_S1024x256_1_1_0_0_n_n.lhsIdx i q 1).val = (q ⟨0, by decide⟩).val :=
  dot_S1024x1000_S256x1000_S1024x256_1_1_0_0_n_n.lhsIdx_val_of_single rfl i q
/-- Axis 0 of the right operand's index is the output's column. -/
theorem rhs_k1000_0 (i : S1024x256.Idx) (q : dot_S1024x1000_S256x1000_S1024x256_1_1_0_0_n_n.contr.Idx) :
    (dot_S1024x1000_S256x1000_S1024x256_1_1_0_0_n_n.rhsIdx i q 0).val = (i 1).val := by
  unfold DotDims.rhsIdx
  rw [dif_neg (show ¬(0 : Fin S256x1000.rank) ∈ dot_S1024x1000_S256x1000_S1024x256_1_1_0_0_n_n.rhsBatch by decide), dif_pos (show (0 : Fin S256x1000.rank) ∈ dot_S1024x1000_S256x1000_S1024x256_1_1_0_0_n_n.rhsNonContracting by decide)]
  rfl
/-- Axis 1 of the right operand's index is the contraction coordinate. -/
theorem rhs_k1000_1 (i : S1024x256.Idx) (q : dot_S1024x1000_S256x1000_S1024x256_1_1_0_0_n_n.contr.Idx) :
    (dot_S1024x1000_S256x1000_S1024x256_1_1_0_0_n_n.rhsIdx i q 1).val = (q ⟨0, by decide⟩).val :=
  dot_S1024x1000_S256x1000_S1024x256_1_1_0_0_n_n.rhsIdx_val_of_single rfl i q

/-- Into the zero accumulator, the product of `l : [1024, 1000]` and `r : [256, 1000]` contracting axis 1 of both is, at
    `(b, q)`, the sum over `k` of `l (b, k) * r (q, k)`: the sum over the one-axis contraction index, re-indexed by its
    coordinate. -/
theorem matmul_k1000_apply (l : FVec Ideal S1024x1000 .bf16) (r : FVec Ideal S256x1000 .bf16) (b : Fin 1024) (q : Fin 256) :
    matmul dot_S1024x1000_S256x1000_S1024x256_1_1_0_0_n_n none l r (constant (F := Ideal) S1024x256 .f32 0x00000000#32) (ix2 b q)
      = ∑ k : Fin 1000, l (ix2 b k) * r (ix2 q k) := by
  simp only [matmul]
  rw [Ideal.matmul_constant_zero_apply, ← Equiv.sum_comp (contrEquiv1 dot_S1024x1000_S256x1000_S1024x256_1_1_0_0_n_n 1000 rfl rfl).symm]
  refine Finset.sum_congr rfl fun k _ => ?_
  have hk := contrEquiv1_symm_val dot_S1024x1000_S256x1000_S1024x256_1_1_0_0_n_n 1000 rfl rfl k
  have el : dot_S1024x1000_S256x1000_S1024x256_1_1_0_0_n_n.lhsIdx (ix2 b q) ((contrEquiv1 dot_S1024x1000_S256x1000_S1024x256_1_1_0_0_n_n 1000 rfl rfl).symm k) = ix2 b k := funext fun a => Fin.ext (by
    match a with
    | ⟨0, _⟩ => exact lhs_k1000_0 _ _
    | ⟨1, _⟩ => exact (lhs_k1000_1 _ _).trans hk)
  have er : dot_S1024x1000_S256x1000_S1024x256_1_1_0_0_n_n.rhsIdx (ix2 b q) ((contrEquiv1 dot_S1024x1000_S256x1000_S1024x256_1_1_0_0_n_n 1000 rfl rfl).symm k) = ix2 q k := funext fun a => Fin.ext (by
    match a with
    | ⟨0, _⟩ => exact rhs_k1000_0 _ _
    | ⟨1, _⟩ => exact (rhs_k1000_1 _ _).trans hk)
  rw [el, er]

/-! ## The payloads -/

/-- The logistic of a sum of two lane-by-lane products, at an index. -/
theorem gate_apply (a c e g : FVec Ideal S1024x256 .f32) (i : S1024x256.Idx) :
    logistic (addf (mulf a c) (mulf e g)) i = Ideal.logistic (a i * c i + e i * g i) := rfl

/-- The chunk of gate activations at `(b, q)`: the logistic of the sum of the two products of contractions. -/
theorem act_apply (x4 x5 : Vec Ideal S256x1024 .f32) (x6 x7 : Vec Ideal S256x1000 .f32) (x0 x1 : Vec Ideal S1024x1024 .bf16) (x2 : Vec Ideal S1024x1000 .bf16) (b : Fin 1024) (q : Fin 256) :
    k0_pay4 (F := Ideal) x4 x5 x6 x7 x0 x1 x2 x2 (ix2 b q)
      = Ideal.logistic ((∑ k : Fin 1000, x2 (ix2 b k) * x6 (ix2 q k)) * (∑ k : Fin 1024, x0 (ix2 b k) * x4 (ix2 q k))
          + (∑ k : Fin 1000, x2 (ix2 b k) * x7 (ix2 q k)) * (∑ k : Fin 1024, x1 (ix2 b k) * x5 (ix2 q k))) := by
  unfold k0_pay4
  simp only [shapeCast_self]
  refine (gate_apply _ _ _ _ _).trans ?_
  rw [matmul_k1000_apply, matmul_k1024_apply, matmul_k1000_apply, matmul_k1024_apply]
  rfl

/-- The first kept copy of a chunk is the chunk: a shape cast to the same shape. -/
theorem keptI_eq (x4 x5 : Vec Ideal S256x1024 .f32) (x6 x7 : Vec Ideal S256x1000 .f32) (x0 x1 : Vec Ideal S1024x1024 .bf16) (x2 : Vec Ideal S1024x1000 .bf16) :
    k0_pay5 (F := Ideal) x4 x5 x6 x7 x0 x1 x2 x2 = k0_pay4 (F := Ideal) x4 x5 x6 x7 x0 x1 x2 x2 := by
  unfold k0_pay5
  exact shapeCast_self _ _

/-- The second kept copy of a chunk is the chunk. -/
theorem keptF_eq (x4 x5 : Vec Ideal S256x1024 .f32) (x6 x7 : Vec Ideal S256x1000 .f32) (x0 x1 : Vec Ideal S1024x1024 .bf16) (x2 : Vec Ideal S1024x1000 .bf16) :
    k0_pay6 (F := Ideal) x4 x5 x6 x7 x0 x1 x2 x2 = k0_pay4 (F := Ideal) x4 x5 x6 x7 x0 x1 x2 x2 := by
  unfold k0_pay6
  exact shapeCast_self _ _

/-- The third kept copy: a shape cast to the same shape is the identity. -/
theorem keptO_eq (v : FVec Ideal S1024x256 .f32) : k0_pay1 (F := Ideal) v = v := by
  unfold k0_pay1
  exact shapeCast_self _ _

/-- The new cell state, lane by lane: first kept chunk times current chunk, plus second kept chunk times previous cell. -/
theorem cell_apply (v23 : FVec Ideal S1024x256 .f32) (v36 v37 v39 : Vec Ideal S1024x256 .f32) (i : S1024x256.Idx) :
    k0_pay2 (F := Ideal) v23 v36 v37 v39 i = v36 i * v23 i + v37 i * v39 i := rfl

/-- The new hidden state, lane by lane: third kept chunk times `tanh` of the new cell state. -/
theorem hidden_apply (v23 : FVec Ideal S1024x256 .f32) (v36 v37 v38 v39 : Vec Ideal S1024x256 .f32) (i : S1024x256.Idx) :
    k0_pay3 (F := Ideal) v23 v36 v37 v38 v39 i = v38 i * Ideal.tanh (v36 i * v23 i + v37 i * v39 i) := rfl

end Cert.KernelIdeal.Pay

end
-- ==== Proof.IdealBlocks.lean ====
/-
  Where each window's block sits in its array.

  The grid has 16 points; point t has chunk t / 4 and gate t % 4. Windows 0, 1, 2 stage the whole of three arrays that
  are the roundings to bf16 of the arguments 0, 1, 3: over the extended reals the rounding is the identity, so an entry
  of such a block is the same entry of the argument. Window 3 stages the columns chunk * 256 + q of argument 2.
  Windows 4 to 7 stage 256 rows of the four weight arrays, at block row gate * 4 + chunk: row
  gate * 1024 + chunk * 256 + q. The two output windows' blocks are the columns chunk * 256 + q of the result arrays,
  written back at the points of gate 3; the four chunks cover all 1024 columns.
-/
import proofs.«422929_j36936718745871_3_alg».proof.Proof.Gen.KernelIdeal.Frame
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The block indices, decided once over the grid -/

/-- Windows 0, 1, 2 always sit at block (0, 0); windows 3, 8, 9 at block (0, chunk); windows 4 to 7 at block
    (gate * 4 + chunk, 0). -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val / 4)
    ∧ (win0_4.index t (0 : Fin 2) = (t.val % 4) * 4 + t.val / 4 ∧ win0_4.index t (1 : Fin 2) = 0)
    ∧ (win0_5.index t (0 : Fin 2) = (t.val % 4) * 4 + t.val / 4 ∧ win0_5.index t (1 : Fin 2) = 0)
    ∧ (win0_6.index t (0 : Fin 2) = (t.val % 4) * 4 + t.val / 4 ∧ win0_6.index t (1 : Fin 2) = 0)
    ∧ (win0_7.index t (0 : Fin 2) = (t.val % 4) * 4 + t.val / 4 ∧ win0_7.index t (1 : Fin 2) = 0)
    ∧ (win0_8.index t (0 : Fin 2) = 0 ∧ win0_8.index t (1 : Fin 2) = t.val / 4)
    ∧ (win0_9.index t (0 : Fin 2) = 0 ∧ win0_9.index t (1 : Fin 2) = t.val / 4) :=
  (by decide +kernel : ∀ t : Fin grid0.N, _)

/-! ## The rows and columns a point's blocks hold -/

/-- Weight row of entry q of the block point t loads: gate t % 4, chunk t / 4. -/
def wrow (t : Fin cfg0.N) (q : Fin 256) : Fin 4096 :=
  ⟨(t.val % 4) * 1024 + (t.val / 4) * 256 + q.val, by
    have ht : t.val < 16 := N_0 ▸ t.isLt
    have hq := q.isLt
    omega⟩

/-- Hidden column of entry q of chunk t / 4. -/
def ocol (t : Fin cfg0.N) (q : Fin 256) : Fin 1024 :=
  ⟨(t.val / 4) * 256 + q.val, by
    have ht : t.val < 16 := N_0 ▸ t.isLt
    have hq := q.isLt
    omega⟩

/-! ## The input blocks as entries of the argument arrays -/

theorem blk0 (c : Dev nD) (t : Fin cfg0.N) (b : Fin 1024) (k : Fin 1024) :
    (iblk m c 0 t : Vec Ideal S1024x1024 .bf16) (ix2 b k) = m ((c.tc : Thread nD τ).loc main_arg0) (ix2 b k) := by
  -- the staged array is the rounding of the argument, which is the identity over the extended reals
  have e : @Eq (FVec Ideal S1024x1024 .bf16) (V m c main_v0)
      (truncf .bf16 (m ((c.tc : Thread nD τ).loc main_arg0) : FVec Ideal S1024x1024 .f32) bitsLt_bf16_f32) := by
    dsimp only [Gen.V, Gen.hostOps0]; after_results
  show V m c main_v0 (((cfg0.win 0).blk t).view.emb (ix2 b k)) = _
  rw [e, truncf_apply]
  refine congrArg (m ((c.tc : Thread nD τ).loc main_arg0)) ?_
  obtain ⟨⟨e0, e1⟩, -⟩ := idx_facts t
  -- the block is the whole array: block index 0 on both axes
  funext a; apply Fin.ext
  match a with
  | ⟨0, _⟩ => show win0_0.index t (0 : Fin 2) * 1024 + 1 * b.val = b.val; omega
  | ⟨1, _⟩ => show win0_0.index t (1 : Fin 2) * 1024 + 1 * k.val = k.val; omega

theorem blk1 (c : Dev nD) (t : Fin cfg0.N) (b : Fin 1024) (k : Fin 1024) :
    (iblk m c 1 t : Vec Ideal S1024x1024 .bf16) (ix2 b k) = m ((c.tc : Thread nD τ).loc main_arg1) (ix2 b k) := by
  -- the staged array is the rounding of the argument, which is the identity over the extended reals
  have e : @Eq (FVec Ideal S1024x1024 .bf16) (V m c main_v1)
      (truncf .bf16 (m ((c.tc : Thread nD τ).loc main_arg1) : FVec Ideal S1024x1024 .f32) bitsLt_bf16_f32) := by
    dsimp only [Gen.V, Gen.hostOps0]; after_results
  show V m c main_v1 (((cfg0.win 1).blk t).view.emb (ix2 b k)) = _
  rw [e, truncf_apply]
  refine congrArg (m ((c.tc : Thread nD τ).loc main_arg1)) ?_
  obtain ⟨-, ⟨e0, e1⟩, -⟩ := idx_facts t
  -- the block is the whole array: block index 0 on both axes
  funext a; apply Fin.ext
  match a with
  | ⟨0, _⟩ => show win0_1.index t (0 : Fin 2) * 1024 + 1 * b.val = b.val; omega
  | ⟨1, _⟩ => show win0_1.index t (1 : Fin 2) * 1024 + 1 * k.val = k.val; omega

theorem blk2 (c : Dev nD) (t : Fin cfg0.N) (b : Fin 1024) (k : Fin 1000) :
    (iblk m c 2 t : Vec Ideal S1024x1000 .bf16) (ix2 b k) = m ((c.tc : Thread nD τ).loc main_arg3) (ix2 b k) := by
  -- the staged array is the rounding of the argument, which is the identity over the extended reals
  have e : @Eq (FVec Ideal S1024x1000 .bf16) (V m c main_v2)
      (truncf .bf16 (m ((c.tc : Thread nD τ).loc main_arg3) : FVec Ideal S1024x1000 .f32) bitsLt_bf16_f32) := by
    dsimp only [Gen.V, Gen.hostOps0]; after_results
  show V m c main_v2 (((cfg0.win 2).blk t).view.emb (ix2 b k)) = _
  rw [e, truncf_apply]
  refine congrArg (m ((c.tc : Thread nD τ).loc main_arg3)) ?_
  obtain ⟨-, -, ⟨e0, e1⟩, -⟩ := idx_facts t
  -- the block is the whole array: block index 0 on both axes
  funext a; apply Fin.ext
  match a with
  | ⟨0, _⟩ => show win0_2.index t (0 : Fin 2) * 1024 + 1 * b.val = b.val; omega
  | ⟨1, _⟩ => show win0_2.index t (1 : Fin 2) * 1000 + 1 * k.val = k.val; omega

theorem blk3 (c : Dev nD) (t : Fin cfg0.N) (b : Fin 1024) (q : Fin 256) :
    (iblk m c 3 t : Vec Ideal S1024x256 .f32) (ix2 b q) = m ((c.tc : Thread nD τ).loc main_arg2) (ix2 b (ocol t q)) := by
  show V m c main_arg2 (((cfg0.win 3).blk t).view.emb (ix2 b q)) = _
  rw [V_main_arg2]
  refine congrArg (m ((c.tc : Thread nD τ).loc main_arg2)) ?_
  obtain ⟨-, -, -, ⟨e0, e1⟩, -⟩ := idx_facts t
  -- all rows, the columns of chunk t / 4
  funext a; apply Fin.ext
  match a with
  | ⟨0, _⟩ => show win0_3.index t (0 : Fin 2) * 1024 + 1 * b.val = b.val; omega
  | ⟨1, _⟩ => show win0_3.index t (1 : Fin 2) * 256 + 1 * q.val = (t.val / 4) * 256 + q.val; omega

theorem blk4 (c : Dev nD) (t : Fin cfg0.N) (q : Fin 256) (k : Fin 1024) :
    (iblk m c 4 t : Vec Ideal S256x1024 .f32) (ix2 q k) = m ((c.tc : Thread nD τ).loc main_arg4) (ix2 (wrow t q) k) := by
  show V m c main_arg4 (((cfg0.win 4).blk t).view.emb (ix2 q k)) = _
  rw [V_main_arg4]
  refine congrArg (m ((c.tc : Thread nD τ).loc main_arg4)) ?_
  obtain ⟨-, -, -, -, ⟨e0, e1⟩, -⟩ := idx_facts t
  -- block row gate * 4 + chunk of 256 rows, all columns
  funext a; apply Fin.ext
  match a with
  | ⟨0, _⟩ => show win0_4.index t (0 : Fin 2) * 256 + 1 * q.val = (t.val % 4) * 1024 + (t.val / 4) * 256 + q.val; omega
  | ⟨1, _⟩ => show win0_4.index t (1 : Fin 2) * 1024 + 1 * k.val = k.val; omega

theorem blk5 (c : Dev nD) (t : Fin cfg0.N) (q : Fin 256) (k : Fin 1024) :
    (iblk m c 5 t : Vec Ideal S256x1024 .f32) (ix2 q k) = m ((c.tc : Thread nD τ).loc main_arg5) (ix2 (wrow t q) k) := by
  show V m c main_arg5 (((cfg0.win 5).blk t).view.emb (ix2 q k)) = _
  rw [V_main_arg5]
  refine congrArg (m ((c.tc : Thread nD τ).loc main_arg5)) ?_
  obtain ⟨-, -, -, -, -, ⟨e0, e1⟩, -⟩ := idx_facts t
  -- block row gate * 4 + chunk of 256 rows, all columns
  funext a; apply Fin.ext
  match a with
  | ⟨0, _⟩ => show win0_5.index t (0 : Fin 2) * 256 + 1 * q.val = (t.val % 4) * 1024 + (t.val / 4) * 256 + q.val; omega
  | ⟨1, _⟩ => show win0_5.index t (1 : Fin 2) * 1024 + 1 * k.val = k.val; omega

theorem blk6 (c : Dev nD) (t : Fin cfg0.N) (q : Fin 256) (k : Fin 1000) :
    (iblk m c 6 t : Vec Ideal S256x1000 .f32) (ix2 q k) = m ((c.tc : Thread nD τ).loc main_arg6) (ix2 (wrow t q) k) := by
  show V m c main_arg6 (((cfg0.win 6).blk t).view.emb (ix2 q k)) = _
  rw [V_main_arg6]
  refine congrArg (m ((c.tc : Thread nD τ).loc main_arg6)) ?_
  obtain ⟨-, -, -, -, -, -, ⟨e0, e1⟩, -⟩ := idx_facts t
  -- block row gate * 4 + chunk of 256 rows, all columns
  funext a; apply Fin.ext
  match a with
  | ⟨0, _⟩ => show win0_6.index t (0 : Fin 2) * 256 + 1 * q.val = (t.val % 4) * 1024 + (t.val / 4) * 256 + q.val; omega
  | ⟨1, _⟩ => show win0_6.index t (1 : Fin 2) * 1000 + 1 * k.val = k.val; omega

theorem blk7 (c : Dev nD) (t : Fin cfg0.N) (q : Fin 256) (k : Fin 1000) :
    (iblk m c 7 t : Vec Ideal S256x1000 .f32) (ix2 q k) = m ((c.tc : Thread nD τ).loc main_arg7) (ix2 (wrow t q) k) := by
  show V m c main_arg7 (((cfg0.win 7).blk t).view.emb (ix2 q k)) = _
  rw [V_main_arg7]
  refine congrArg (m ((c.tc : Thread nD τ).loc main_arg7)) ?_
  obtain ⟨-, -, -, -, -, -, -, ⟨e0, e1⟩, -⟩ := idx_facts t
  -- block row gate * 4 + chunk of 256 rows, all columns
  funext a; apply Fin.ext
  match a with
  | ⟨0, _⟩ => show win0_7.index t (0 : Fin 2) * 256 + 1 * q.val = (t.val % 4) * 1024 + (t.val / 4) * 256 + q.val; omega
  | ⟨1, _⟩ => show win0_7.index t (1 : Fin 2) * 1000 + 1 * k.val = k.val; omega

/-! ## The output blocks as parts of the result arrays -/

/-- Entry (b, q) of an output window's block at point t is entry (b, ocol t q) of its array. -/
theorem emb8 (t : Fin cfg0.N) (b : Fin 1024) (q : Fin 256) :
    (((cfg0.win 8).blk t).view.emb (ix2 b q) : S1024x1024.Idx) = ix2 b (ocol t q) := by
  obtain ⟨-, -, -, -, -, -, -, -, ⟨e0, e1⟩, -⟩ := idx_facts t
  funext a; apply Fin.ext
  match a with
  | ⟨0, _⟩ => show win0_8.index t (0 : Fin 2) * 1024 + 1 * b.val = b.val; omega
  | ⟨1, _⟩ => show win0_8.index t (1 : Fin 2) * 256 + 1 * q.val = (t.val / 4) * 256 + q.val; omega

/-- An index of the result array is in point t's block iff each coordinate is in the block's range on its axis. -/
theorem mem_blk8 (t : Fin cfg0.N) (i : S1024x1024.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v3_0).slice (win0_8.rect t)).set ↔ _
  rw [View.set_slice_whole, Rect.mem_set_unit]
  exact Iff.rfl

/-- Every entry of a result array lies in the block some writing-back point covers. -/
theorem cover8 (i : S1024x1024.Idx) :
    ∃ t : Fin cfg0.N, (cfg0.win 8).flush t = true ∧ i ∈ ((cfg0.win 8).blk t).view.set := by
  have hi0 : (i 0).val < 1024 := (i 0).isLt
  have hi1 : (i 1).val < 1024 := (i 1).isLt
  -- column r lies in chunk r / 256, whose block is written back at its gate-3 point
  obtain ⟨t, ht⟩ : ∃ t : Fin cfg0.N, t.val = 4 * ((i 1).val / 256) + 3 :=
    ⟨⟨4 * ((i 1).val / 256) + 3, by show _ < grid0.N; rw [N_0]; omega⟩, rfl⟩
  obtain ⟨-, -, -, -, -, -, -, -, ⟨e0, e1⟩, -⟩ := idx_facts t
  refine ⟨t, (flush0_8 t).mpr (by omega), ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-- Entry (b, q) of an output window's block at point t is entry (b, ocol t q) of its array. -/
theorem emb9 (t : Fin cfg0.N) (b : Fin 1024) (q : Fin 256) :
    (((cfg0.win 9).blk t).view.emb (ix2 b q) : S1024x1024.Idx) = ix2 b (ocol t q) := by
  obtain ⟨-, -, -, -, -, -, -, -, -, ⟨e0, e1⟩⟩ := idx_facts t
  funext a; apply Fin.ext
  match a with
  | ⟨0, _⟩ => show win0_9.index t (0 : Fin 2) * 1024 + 1 * b.val = b.val; omega
  | ⟨1, _⟩ => show win0_9.index t (1 : Fin 2) * 256 + 1 * q.val = (t.val / 4) * 256 + q.val; omega

/-- An index of the result array is in point t's block iff each coordinate is in the block's range on its axis. -/
theorem mem_blk9 (t : Fin cfg0.N) (i : S1024x1024.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v3_1).slice (win0_9.rect t)).set ↔ _
  rw [View.set_slice_whole, Rect.mem_set_unit]
  exact Iff.rfl

/-- Every entry of a result array lies in the block some writing-back point covers. -/
theorem cover9 (i : S1024x1024.Idx) :
    ∃ t : Fin cfg0.N, (cfg0.win 9).flush t = true ∧ i ∈ ((cfg0.win 9).blk t).view.set := by
  have hi0 : (i 0).val < 1024 := (i 0).isLt
  have hi1 : (i 1).val < 1024 := (i 1).isLt
  -- column r lies in chunk r / 256, whose block is written back at its gate-3 point
  obtain ⟨t, ht⟩ : ∃ t : Fin cfg0.N, t.val = 4 * ((i 1).val / 256) + 3 :=
    ⟨⟨4 * ((i 1).val / 256) + 3, by show _ < grid0.N; rw [N_0]; omega⟩, rfl⟩
  obtain ⟨-, -, -, -, -, -, -, -, -, ⟨e0, e1⟩⟩ := idx_facts t
  refine ⟨t, (flush0_9 t).mpr (by omega), ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 256 ≤ (i 1).val ∧ (i 1).val < win0_9.index t (1 : Fin 2) * 256 + 256; omega

end Cert.KernelIdeal.Blocks

end
-- ==== Proof.Cell.lean ====
/-
  The cell this certificate is about, as mathematics over the extended reals.

  Inputs: activations x, h : [1024, 1024] and concept cp : [1024, 1000]; the old cell state cs : [1024, 1024];
  four weight matrices with 4096 rows, one block of 1024 rows per gate (input, forget, output, candidate):
  Win, Wst : [4096, 1024] and Wci, Wcs : [4096, 1000].

  For a batch row b and a weight row g the gate's pre-activation is
      z(b, g) = (cp_b · Wci_g) * (x_b · Win_g) + (cp_b · Wcs_g) * (h_b · Wst_g),
  every dot product a finite sum of products, and the gate is the logistic function of it. For a hidden column j < 1024
  the new cell state and the new hidden state are
      c(b, j) = gate(b, j) * gate(b, 3072 + j) + gate(b, 1024 + j) * cs(b, j),
      h(b, j) = gate(b, 2048 + j) * tanh (c(b, j)).
-/
import Idealize.ShloMosaic.PureOps.Ideal
import Idealize.ShloMosaic.Lib.ValueIdx

noncomputable section

namespace Cert.Cell

open Idealize.ShloMosaic Idealize.ShloMosaic.ValueIdx

/-- The shapes of the arrays, spelt as the printed programs spell them. -/
abbrev SAct : Shape := ⟨2, ![1024, 1024]⟩
abbrev SCon : Shape := ⟨2, ![1024, 1000]⟩
abbrev SW : Shape := ⟨2, ![4096, 1024]⟩
abbrev SWc : Shape := ⟨2, ![4096, 1000]⟩

variable (x h cs : SAct.Idx → EReal) (cp : SCon.Idx → EReal) (Win Wst : SW.Idx → EReal) (Wci Wcs : SWc.Idx → EReal)

/-- The pre-activation of weight row `g` on batch row `b`: the two concept projections gate the input and the state
    projections, each projection a dot product along the row. -/
def pre (b : Fin 1024) (g : Fin 4096) : EReal :=
  (∑ k : Fin 1000, cp (ix2 b k) * Wci (ix2 g k)) * (∑ k : Fin 1024, x (ix2 b k) * Win (ix2 g k))
    + (∑ k : Fin 1000, cp (ix2 b k) * Wcs (ix2 g k)) * (∑ k : Fin 1024, h (ix2 b k) * Wst (ix2 g k))

/-- Every gate, the candidate included, is the logistic function of its pre-activation. -/
def gate (b : Fin 1024) (g : Fin 4096) : EReal := Ideal.logistic (pre x h cp Win Wst Wci Wcs b g)

/-- Weight row `r * 1024 + j`: column `j` of gate number `r`. -/
abbrev row (r : Fin 4) (j : Fin 1024) : Fin 4096 := ⟨r.val * 1024 + j.val, by have := r.isLt; have := j.isLt; omega⟩

/-- The new cell state: input gate times candidate plus forget gate times the old state. -/
def cell (b j : Fin 1024) : EReal :=
  gate x h cp Win Wst Wci Wcs b (row 0 j) * gate x h cp Win Wst Wci Wcs b (row 3 j)
    + gate x h cp Win Wst Wci Wcs b (row 1 j) * cs (ix2 b j)

/-- The new hidden state: output gate times tanh of the new cell state. -/
def hidden (b j : Fin 1024) : EReal :=
  gate x h cp Win Wst Wci Wcs b (row 2 j) * Ideal.tanh (cell x h cs cp Win Wst Wci Wcs b j)

/-- The two results as whole arrays. -/
def cellArr : SAct.Idx → EReal := fun i => cell x h cs cp Win Wst Wci Wcs (i 0) (i 1)
def hiddenArr : SAct.Idx → EReal := fun i => hidden x h cs cp Win Wst Wci Wcs (i 0) (i 1)

end Cert.Cell

end
-- ==== Proof.IdealValue.lean ====
/-
  The idealized kernel computes the cell.

  Point t = 4 * chunk + gate of the grid loads rows gate * 1024 + chunk * 256 + (0 … 255) of the four weight matrices and
  forms, for every batch row b and every q < 256, the logistic of
      (concept_b · W_ci_row) * (input_b · W_in_row) + (concept_b · W_cs_row) * (state_b · W_st_row):
  over the extended reals the casts to the narrow format are the identity and each product with the matrix unit is the
  plain sum, so this is the specification's gate at weight row gate * 1024 + (chunk * 256 + q). A candidate point
  (gate 3) combines the chunks of the three points before it — the same chunk of hidden columns at gates 0, 1, 2 —
  with its own and with the old cell state's block: entry (b, q) of what it writes back is the specification's new
  cell state, and new hidden state, at hidden column chunk * 256 + q. The four candidate points' blocks tile the
  [1024, 1024] results, so each result array ends as the specification's array.
-/
import proofs.«422929_j36936718745871_3_alg».proof.Proof.IdealFrame
import proofs.«422929_j36936718745871_3_alg».proof.Proof.IdealPayload
import proofs.«422929_j36936718745871_3_alg».proof.Proof.IdealBlocks
import proofs.«422929_j36936718745871_3_alg».proof.Proof.Cell

set_option maxRecDepth 16384

noncomputable section

namespace Cert.KernelIdeal.CellValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.KernelIdeal.Blocks Cert.KernelIdeal.Pay

variable (m : (ℓ : Loc nD τ sig) → Buf (Elt Ideal) ℓ) (ρ : Dev nD → PrngReg)

theorem lt16 (t : Fin cfg0.N) : t.val < 16 := lt_of_lt_of_eq t.isLt (show cfg0.N = 16 from N_0)

/-- The gate chunk of point `t` at entry (b, q) is the specification's gate at the weight row the point loads there. -/
theorem act_at (c : Dev nD) (t : Fin cfg0.N) (b : Fin 1024) (q : Fin 256) :
    k0_pay4 (F := Ideal) (iblk m c 4 t) (iblk m c 5 t) (iblk m c 6 t) (iblk m c 7 t) (iblk m c 0 t) (iblk m c 1 t) (iblk m c 2 t) (iblk m c 2 t) (ix2 b q)
      = Cert.Cell.gate (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b (wrow t q) := by
  refine (act_apply _ _ _ _ _ _ _ b q).trans ?_
  unfold Cert.Cell.gate Cert.Cell.pre
  simp only [blk0 m c t, blk1 m c t, blk2 m c t, blk4 m c t, blk5 m c t, blk6 m c t, blk7 m c t]

/-- Three, two and one points before a candidate point are the input, forget and output gates of the same chunk: the
    weight rows they load at entry q are rows 0·1024 + j, 1·1024 + j, 2·1024 + j for the hidden column j of that entry,
    and the candidate's own is row 3·1024 + j. -/
theorem wrow_back3 (t : Fin cfg0.N) (h3 : t.val % 4 = 3) (q : Fin 256) : wrow (pt (t.val - 3)) q = Cert.Cell.row 0 (ocol t q) :=
  Fin.ext (by
    show ((t.val - 3) % 16) % 4 * 1024 + ((t.val - 3) % 16) / 4 * 256 + q.val = 0 * 1024 + (t.val / 4 * 256 + q.val)
    have := lt16 t; omega)
theorem wrow_back2 (t : Fin cfg0.N) (h3 : t.val % 4 = 3) (q : Fin 256) : wrow (pt (t.val - 2)) q = Cert.Cell.row 1 (ocol t q) :=
  Fin.ext (by
    show ((t.val - 2) % 16) % 4 * 1024 + ((t.val - 2) % 16) / 4 * 256 + q.val = 1 * 1024 + (t.val / 4 * 256 + q.val)
    have := lt16 t; omega)
theorem wrow_back1 (t : Fin cfg0.N) (h3 : t.val % 4 = 3) (q : Fin 256) : wrow (pt (t.val - 1)) q = Cert.Cell.row 2 (ocol t q) :=
  Fin.ext (by
    show ((t.val - 1) % 16) % 4 * 1024 + ((t.val - 1) % 16) / 4 * 256 + q.val = 2 * 1024 + (t.val / 4 * 256 + q.val)
    have := lt16 t; omega)
theorem wrow_self (t : Fin cfg0.N) (h3 : t.val % 4 = 3) (q : Fin 256) : wrow t q = Cert.Cell.row 3 (ocol t q) :=
  Fin.ext (by
    show t.val % 4 * 1024 + t.val / 4 * 256 + q.val = 3 * 1024 + (t.val / 4 * 256 + q.val)
    omega)
/-- and they are points of the same chunk, so the old cell state's block is read at the same hidden column. -/
theorem ocol_back (t : Fin cfg0.N) (h3 : t.val % 4 = 3) (q : Fin 256) (k : ℕ) (hk : k ≤ 3) : ocol (pt (t.val - k)) q = ocol t q :=
  Fin.ext (by
    show ((t.val - k) % 16) / 4 * 256 + q.val = t.val / 4 * 256 + q.val
    have := lt16 t; omega)

/-- Entry (b, q) of the new cell state's block at a candidate point. -/
theorem outC_at (c : Dev nD) (t : Fin cfg0.N) (h3 : t.val % 4 = 3) (b : Fin 1024) (q : Fin 256) :
    outC m c t (ix2 b q) = Cert.Cell.cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b (ocol t q) := by
  unfold outC keptI keptF
  rw [cell_apply, keptI_eq, keptF_eq, act_at, act_at, act_at, blk3, wrow_back3 t h3, wrow_back2 t h3, wrow_self t h3]
  rfl

/-- Entry (b, q) of the new hidden state's block at a candidate point. -/
theorem outH_at (c : Dev nD) (t : Fin cfg0.N) (h3 : t.val % 4 = 3) (b : Fin 1024) (q : Fin 256) :
    outH m c t (ix2 b q) = Cert.Cell.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b (ocol t q) := by
  unfold outH keptI keptF keptO
  rw [hidden_apply, keptI_eq, keptF_eq, keptO_eq, act_at, act_at, act_at, act_at, blk3, wrow_back3 t h3, wrow_back2 t h3, wrow_back1 t h3, wrow_self t h3]
  rfl

/-- What a candidate point writes back is its block of the specification's array. -/
theorem flushed8_eq (c : Dev nD) (t : Fin cfg0.N) (hf : (cfg0.win 8).flush t = true) :
    (dats m 0 c).flushed 8 t = ((cfg0.win 8).blk t).view.read (Elt Ideal) (Cert.Cell.hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  have h3 : t.val % 4 = 3 := (flush0_8 t).mp hf
  show (cfg0.win 8).cut (grid0.coords t) ((dats m 0 c).after 8 t) = _
  rw [after8]
  refine funext (fun (j : S1024x256.Idx) => ?_)
  obtain ⟨b, q, rfl⟩ : ∃ (b : Fin 1024) (q : Fin 256), j = ix2 b q := ⟨j 0, j 1, eq_ix2 j⟩
  show outH m c t (ix2 b q) = Cert.Cell.hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 8).blk t).view.emb (ix2 b q))
  rw [emb8, outH_at m c t h3]
  rfl

theorem flushed9_eq (c : Dev nD) (t : Fin cfg0.N) (hf : (cfg0.win 9).flush t = true) :
    (dats m 0 c).flushed 9 t = ((cfg0.win 9).blk t).view.read (Elt Ideal) (Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  have h3 : t.val % 4 = 3 := (flush0_9 t).mp hf
  show (cfg0.win 9).cut (grid0.coords t) ((dats m 0 c).after 9 t) = _
  rw [after9]
  refine funext (fun (j : S1024x256.Idx) => ?_)
  obtain ⟨b, q, rfl⟩ : ∃ (b : Fin 1024) (q : Fin 256), j = ix2 b q := ⟨j 0, j 1, eq_ix2 j⟩
  show outC m c t (ix2 b q) = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 9).blk t).view.emb (ix2 b q))
  rw [emb9, outC_at m c t h3]
  rfl

/-- The result arrays after the run: the blocks of the four candidate points tile them. -/
theorem final8 (c : Dev nD) : (dats m 0 c).arrAt 8 cfg0.N = Cert.Cell.hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 8 _ (fun t hf => flushed8_eq m c t hf) cover8

theorem final9 (c : Dev nD) : (dats m 0 c).arrAt 9 cfg0.N = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 9 _ (fun t hf => flushed9_eq m c t hf) cover9

/-- The run of the idealized kernel: it terminates, the two results are the specification's arrays of the arguments, and
    the arguments are unchanged. -/
theorem run : θ_run defs (onTc (τ := τ) (main (F := Ideal))) ⟨m, fun _ => 0, ρ⟩ fun r => ∀ c : Dev nD,
      r.2.mem ((c.tc : Thread nD τ).loc main_v3_0) = Cert.Cell.hiddenArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v3_1) = Cert.Cell.cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
      ⟨((h c).1 8).trans (final8 m c), ((h c).1 9).trans (final9 m c),
        ((h c).2 main_arg0 (Pipeline.mem_restRefs_of main_arg0 (by decide) (by decide))).trans (V_main_arg0 m c),
        ((h c).2 main_arg1 (Pipeline.mem_restRefs_of main_arg1 (by decide) (by decide))).trans (V_main_arg1 m c),
        ((h c).1 3).trans (((dats m 0 c).arrAt_in 3 rfl _).trans ((A_eq m c 3).trans (V_main_arg2 m c))),
        ((h c).2 main_arg3 (Pipeline.mem_restRefs_of main_arg3 (by decide) (by decide))).trans (V_main_arg3 m c),
        ((h c).1 4).trans (((dats m 0 c).arrAt_in 4 rfl _).trans ((A_eq m c 4).trans (V_main_arg4 m c))),
        ((h c).1 5).trans (((dats m 0 c).arrAt_in 5 rfl _).trans ((A_eq m c 5).trans (V_main_arg5 m c))),
        ((h c).1 6).trans (((dats m 0 c).arrAt_in 6 rfl _).trans ((A_eq m c 6).trans (V_main_arg6 m c))),
        ((h c).1 7).trans (((dats m 0 c).arrAt_in 7 rfl _).trans ((A_eq m c 7).trans (V_main_arg7 m c)))⟩)
    (run_main m ρ)

end Cert.KernelIdeal.CellValue

end
-- ==== Proof.RefIsCell.lean ====
/-
  The reference computes the cell.

  The reference program forms the four projections as dot products along a row, multiplies each concept projection
  into its activation projection, adds the two products, and applies 1 / (1 + exp (-z)), which is the logistic function
  by definition; that is the gate of the specification at every batch row b and weight row g, on a [1024, 4096] array.
  It then cuts this array into four [1024, 1024] slices at the column offsets 0, 1024, 2048 and 3072: column j of slice
  number r is weight row r * 1024 + j, so the slices are the input, forget, output and candidate gates. The new cell state
  is input gate times candidate plus forget gate times the old state, and the new hidden state is the output gate times
  tanh of the new cell state: the two arrays of the specification, entry by entry.
-/
import proofs.«422929_j36936718745871_3_alg».proof.Proof.Cell
import proofs.«422929_j36936718745871_3_alg».proof.Proof.Gen.ReferenceIdeal.Read
import Idealize.ShloMosaic.PureOps.IdealRules

noncomputable section

namespace Cert.ReferenceIdeal.RefValue

open Cert.ReferenceIdeal Cert.ReferenceIdeal.Read Idealize.ShloMosaic Idealize.ShloMosaic.ValueIdx

/-- The word 0x3F800000 is the number one. -/
theorem one_word : Ideal.ofBits .f32 0x3F800000#32 = 1 := IdealRules.sign_bit.ideal_onePat .f32

/-- Column `j` of the slice at column offset `r * 1024` of a [1024, 4096] array is its column `r * 1024 + j`. -/
theorem slice0 (b j : Fin 1024) : idx_main_v13 (ix2 b j) = ix2 b (Cert.Cell.row 0 j) :=
  funext fun a => Fin.ext (by
    match a with
    | ⟨0, _⟩ => rfl
    | ⟨1, _⟩ => show j.val = 0 * 1024 + j.val; omega)
theorem slice1 (b j : Fin 1024) : idx_main_v14 (ix2 b j) = ix2 b (Cert.Cell.row 1 j) :=
  funext fun a => Fin.ext (by
    match a with
    | ⟨0, _⟩ => rfl
    | ⟨1, _⟩ => show 1024 + j.val = 1 * 1024 + j.val; omega)
theorem slice2 (b j : Fin 1024) : idx_main_v15 (ix2 b j) = ix2 b (Cert.Cell.row 2 j) :=
  funext fun a => Fin.ext (by
    match a with
    | ⟨0, _⟩ => rfl
    | ⟨1, _⟩ => show 2048 + j.val = 2 * 1024 + j.val; omega)
theorem slice3 (b j : Fin 1024) : idx_main_v16 (ix2 b j) = ix2 b (Cert.Cell.row 3 j) :=
  funext fun a => Fin.ext (by
    match a with
    | ⟨0, _⟩ => rfl
    | ⟨1, _⟩ => show 3072 + j.val = 3 * 1024 + j.val; omega)

/-- The [1024, 4096] stage after the division is the gate: at batch row `b` and weight row `g` the four dot products
    run along row `b` of an activation and row `g` of a weight matrix, and 1 / (1 + exp (-z)) is the logistic function. -/
theorem gate_eq (x0 x1 : (⟨S1024x1024, .f32⟩ : BufTy).Contents (Elt Ideal)) (x3 : (⟨S1024x1000, .f32⟩ : BufTy).Contents (Elt Ideal)) (x4 x5 : (⟨S4096x1024, .f32⟩ : BufTy).Contents (Elt Ideal)) (x6 x7 : (⟨S4096x1000, .f32⟩ : BufTy).Contents (Elt Ideal)) (b : Fin 1024) (g : Fin 4096) :
    val_main_v12 (F := Ideal) x0 x1 x3 x4 x5 x6 x7 (ix2 b g) = Cert.Cell.gate x0 x1 x3 x4 x5 x6 x7 b g := by
  have l0 : ∀ k : Fin 1000, lidx_main_v0 (ix2 b g) k = ix2 b k := fun k =>
    funext fun a => Fin.ext (by match a with | ⟨0, _⟩ => rfl | ⟨1, _⟩ => rfl)
  have r0 : ∀ k : Fin 1000, ridx_main_v0 (ix2 b g) k = ix2 g k := fun k =>
    funext fun a => Fin.ext (by match a with | ⟨0, _⟩ => rfl | ⟨1, _⟩ => rfl)
  have l1 : ∀ k : Fin 1000, lidx_main_v1 (ix2 b g) k = ix2 b k := fun k =>
    funext fun a => Fin.ext (by match a with | ⟨0, _⟩ => rfl | ⟨1, _⟩ => rfl)
  have r1 : ∀ k : Fin 1000, ridx_main_v1 (ix2 b g) k = ix2 g k := fun k =>
    funext fun a => Fin.ext (by match a with | ⟨0, _⟩ => rfl | ⟨1, _⟩ => rfl)
  have l2 : ∀ k : Fin 1024, lidx_main_v2 (ix2 b g) k = ix2 b k := fun k =>
    funext fun a => Fin.ext (by match a with | ⟨0, _⟩ => rfl | ⟨1, _⟩ => rfl)
  have r2 : ∀ k : Fin 1024, ridx_main_v2 (ix2 b g) k = ix2 g k := fun k =>
    funext fun a => Fin.ext (by match a with | ⟨0, _⟩ => rfl | ⟨1, _⟩ => rfl)
  have l3 : ∀ k : Fin 1024, lidx_main_v3 (ix2 b g) k = ix2 b k := fun k =>
    funext fun a => Fin.ext (by match a with | ⟨0, _⟩ => rfl | ⟨1, _⟩ => rfl)
  have r3 : ∀ k : Fin 1024, ridx_main_v3 (ix2 b g) k = ix2 g k := fun k =>
    funext fun a => Fin.ext (by match a with | ⟨0, _⟩ => rfl | ⟨1, _⟩ => rfl)
  rw [val_main_v12_apply, val_main_v11_apply, val_main_cst_0_apply, val_main_v10_apply, val_main_v9_apply,
    val_main_cst_apply, val_main_v8_apply, val_main_v7_apply, val_main_v6_apply, val_main_v4_apply, val_main_v5_apply,
    val_main_v0_apply, val_main_v2_apply, val_main_v1_apply, val_main_v3_apply]
  simp only [l0, r0, l1, r1, l2, r2, l3, r3, Ideal.hostDivf_def, Ideal.ofBits_def, Ideal.addf_def, Ideal.mulf_def,
    Ideal.hostUnary_exp_def, Ideal.hostNegf_def, Ideal.negf_def, one_word]
  rfl

/-- The new cell state, entry by entry. -/
theorem cell_eq (x0 x1 x2 : (⟨S1024x1024, .f32⟩ : BufTy).Contents (Elt Ideal)) (x3 : (⟨S1024x1000, .f32⟩ : BufTy).Contents (Elt Ideal)) (x4 x5 : (⟨S4096x1024, .f32⟩ : BufTy).Contents (Elt Ideal)) (x6 x7 : (⟨S4096x1000, .f32⟩ : BufTy).Contents (Elt Ideal)) (b j : Fin 1024) :
    val_main_v19 (F := Ideal) x0 x1 x2 x3 x4 x5 x6 x7 (ix2 b j) = Cert.Cell.cell x0 x1 x2 x3 x4 x5 x6 x7 b j := by
  rw [val_main_v19_apply, val_main_v17_apply, val_main_v18_apply, val_main_v13_apply, val_main_v16_apply,
    val_main_v14_apply, slice0, slice3, slice1, gate_eq, gate_eq, gate_eq]
  simp only [Ideal.addf_def, Ideal.mulf_def]
  rfl

theorem ref_cell (x0 x1 x2 : (⟨S1024x1024, .f32⟩ : BufTy).Contents (Elt Ideal)) (x3 : (⟨S1024x1000, .f32⟩ : BufTy).Contents (Elt Ideal)) (x4 x5 : (⟨S4096x1024, .f32⟩ : BufTy).Contents (Elt Ideal)) (x6 x7 : (⟨S4096x1000, .f32⟩ : BufTy).Contents (Elt Ideal)) :
    Cert.ReferenceIdeal.Read.val_main_v19 (F := Ideal) x0 x1 x2 x3 x4 x5 x6 x7 = Cert.Cell.cellArr x0 x1 x2 x3 x4 x5 x6 x7 := by
  funext i
  obtain ⟨b, j, rfl⟩ : ∃ (b : Fin 1024) (j : Fin 1024), i = ix2 b j := ⟨i 0, i 1, eq_ix2 i⟩
  exact cell_eq x0 x1 x2 x3 x4 x5 x6 x7 b j

theorem ref_hidden (x0 x1 x2 : (⟨S1024x1024, .f32⟩ : BufTy).Contents (Elt Ideal)) (x3 : (⟨S1024x1000, .f32⟩ : BufTy).Contents (Elt Ideal)) (x4 x5 : (⟨S4096x1024, .f32⟩ : BufTy).Contents (Elt Ideal)) (x6 x7 : (⟨S4096x1000, .f32⟩ : BufTy).Contents (Elt Ideal)) :
    Cert.ReferenceIdeal.Read.val_main_v21 (F := Ideal) x0 x1 x2 x3 x4 x5 x6 x7 = Cert.Cell.hiddenArr x0 x1 x2 x3 x4 x5 x6 x7 := by
  funext i
  obtain ⟨b, j, rfl⟩ : ∃ (b : Fin 1024) (j : Fin 1024), i = ix2 b j := ⟨i 0, i 1, eq_ix2 i⟩
  rw [val_main_v21_apply, val_main_v20_apply, val_main_v15_apply, slice2, gate_eq, cell_eq]
  simp only [Ideal.mulf_def, Ideal.hostUnary_tanh_def]
  rfl

end Cert.ReferenceIdeal.RefValue

end
-- ==== Proof.lean ====
/-
  A concept-gated LSTM cell, fused into one kernel, against its array-level reference.

  Both programs compute, for a batch of 1024 rows and 1024 hidden columns, four gates per hidden column — each the
  logistic function of (concept · W_ci) * (input · W_in) + (concept · W_cs) * (state · W_st) along one row of the
  stacked weight matrices — and from them the new cell state c = i * cand + f * c_old and the new hidden state
  h = o * tanh c. The reference forms all 4096 gate columns at once and slices them into four; the kernel walks a grid of
  4 chunks of 256 hidden columns by 4 gates, keeps the input, forget and output gates' chunks in three buffers, and
  combines at the fourth gate. Over the extended reals the kernel's casts to a narrower float format are the identity
  and its products with the matrix unit are plain sums, so the two programs are the same sums, products, logistic and
  tanh, entry by entry: no algebraic law is needed to join them and the inputs' finiteness is never used.

  The pieces: the specification (Cell), the reference's results as the specification's arrays (RefIsCell), the kernel
  body run branch by branch and the launch's invariant on the three buffers (the Sched, Runs and Frame modules, once for
  each of the two printings of the kernel), the body's arithmetic and the windows' blocks read at an index (IdealPayload,
  IdealBlocks), and the kernel's results as the specification's arrays (IdealValue).
-/
import proofs.«422929_j36936718745871_3_alg».proof.Defs
import proofs.«422929_j36936718745871_3_alg».proof.Proof.Gen.Kernel
import proofs.«422929_j36936718745871_3_alg».proof.Proof.Gen.KernelIdeal
import proofs.«422929_j36936718745871_3_alg».proof.Proof.Gen.ReferenceIdeal
import proofs.«422929_j36936718745871_3_alg».proof.Proof.Gen.ReferenceIdeal.Run
import proofs.«422929_j36936718745871_3_alg».proof.Proof.Gen.ReferenceIdeal.Read
import proofs.«422929_j36936718745871_3_alg».proof.Proof.Gen.Pre_finite_inputs
import proofs.«422929_j36936718745871_3_alg».proof.Proof.BitsFrame
import proofs.«422929_j36936718745871_3_alg».proof.Proof.IdealValue
import proofs.«422929_j36936718745871_3_alg».proof.Proof.RefIsCell

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is a straight line of array operations: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the specification's two arrays of their (equal) arguments. -/
theorem algebraic : Cert.algebraic_KernelIdeal_ReferenceIdeal := by
  intro m ρ m' ρ' _ hagree
  refine ⟨fun c => Cert.Cell.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Cell.cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.CellValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v21_eq, Cert.ReferenceIdeal.RefValue.ref_hidden,
      (hagree c).1, (hagree c).2.1, (hagree c).2.2.1, (hagree c).2.2.2.1, (hagree c).2.2.2.2.1,
      (hagree c).2.2.2.2.2.1, (hagree c).2.2.2.2.2.2.1, (hagree c).2.2.2.2.2.2.2]
  · rw [(h c).2.1, Cert.ReferenceIdeal.Read.val_main_v19_eq, Cert.ReferenceIdeal.RefValue.ref_cell,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
